-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S2x600000 : Shape := ⟨2, ![2, 600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_

variable [Facts]

def fn_part3 {F : FTy → Type} [FloatOps F] (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  main_v52

def fn_part2 {F : FTy → Type} [FloatOps F] (main_arg7 : FVec F S128 .f32) (main_arg8 : FVec F S128 .f32) (main_arg9 : FVec F S128 .f32) (main_arg10 : FVec F S_ .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S_ .f32 := Host.absf main_arg10
  let main_cst_18 : FVec F S_ .f32 := constant S_ .f32 0x7F800000#32
  let main_v50 : IVec S_ 1 := cmpf .olt main_v49 main_cst_18
  fn_part3 (F := F) main_v48 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S600000x64 .f32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S_ .f32) (main_arg11 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg1
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S2x600000 : Shape := ⟨2, ![2, 600000]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S600000x1 : Shape := ⟨2, ![600000, 1]⟩
abbrev S10x8x128 : Shape := ⟨3, ![10, 8, 128]⟩
abbrev S5000x128 : Shape := ⟨2, ![5000, 128]⟩
abbrev S1x8x128 : Shape := ⟨3, ![1, 8, 128]⟩
abbrev S1x1x128 : Shape := ⟨3, ![1, 1, 128]⟩
abbrev S5x8x128 : Shape := ⟨3, ![5, 8, 128]⟩
abbrev S10000x128 : Shape := ⟨2, ![10000, 128]⟩

abbrev nBuf : Space → Nat
  | .hbm => 59
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S600000x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S2x600000, .i32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S600000x64, .bf16⟩
  | .hbm, ⟨17, _⟩ => ⟨S64x128, .bf16⟩
  | .hbm, ⟨18, _⟩ => ⟨S600000x128, .f32⟩
  | .hbm, ⟨19, _⟩ => ⟨S1x128, .f32⟩
  | .hbm, ⟨20, _⟩ => ⟨S600000x128, .f32⟩
  | .hbm, ⟨21, _⟩ => ⟨S600000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S50000x128, .f32⟩
  | .hbm, ⟨43, _⟩ => ⟨S10x8x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S5x8x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S1x8x128, .f32⟩
  | .local _ .vmem, ⟨12, _⟩ => ⟨S1x8x128, .f32⟩
  | .local _ .vmem, ⟨13, _⟩ => ⟨S10000x128, .f32⟩
  | .local _ .vmem, ⟨14, _⟩ => ⟨S10000x128, .f32⟩
  | .local _ .vmem, ⟨15, _⟩ => ⟨S128, .f32⟩
  | .local _ .vmem, ⟨16, _⟩ => ⟨S1x8x128, .f32⟩
  | .local _ .vmem, ⟨17, _⟩ => ⟨S1x8x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S10000x128, .f32⟩
  | .local _ .vmem, ⟨27, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_cst_2 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S128 : S_.BroadcastsInDim S128 (![] : Fin 0 → Fin S128.rank)
  inb_S128_S128_0 : ∀ a, (![0] : Fin 1 → Nat) a + S128.size a ≤ S128.size a
  h_S128 : 0 < S128.numel
  shapeCasts_S128_S128 : S128.ShapeCasts S128
  inb_S5000x128_S5000x128_0_0 : ∀ a, (![0, 0] : Fin 2 → Nat) a + S5000x128.size a ≤ S5000x128.size a
  h_S5000x128 : 0 < S5000x128.numel
  shapeCasts_S128_S1x128 : S128.ShapeCasts S1x128
  broadcasts_S1x128_S5000x128 : S1x128.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  reduces_S5000x128_S128 : S5000x128.Reduces [0] S128
  iota_S1x8x128_d1_w32 : S1x8x128.Iotas .tc 32 [1]
  shapeCasts_S128_S1x1x128 : S128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S10x8x128_S128_d0_1 : S10x8x128.ReducesTo [0, 1] S128
  h_S_ : 0 < S_.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  reduces_S10000x128_S128 : S10000x128.Reduces [0] S128
  reducesTo_S5x8x128_S128_d0_1 : S5x8x128.ReducesTo [0, 1] S128
  dot_S600000x64_S64x128_S600000x128_1_0_0_1_n_n_wf : DotDims.WF S600000x64 S64x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S10x8x128.size a
  hwx0_8 : ∀ i : grid0.Coords, EltTy.bits .f32 = 32 ∨ (Rect.block (s := S10x8x128) S1x8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S5x8x128.size a
  hwx1_2 : ∀ i : grid1.Coords, EltTy.bits .f32 = 32 ∨ (Rect.block (s := S5x8x128) S1x8x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)

variable [Facts₀]

def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S2x600000 : Shape := ⟨2, ![2, 600000]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S2x600000, .i32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x128, .f32⟩
  | .hbm, ⟨26, _⟩ => ⟨S600000x128, .f32⟩
  | .hbm, ⟨27, _⟩ => ⟨S1x128, .f32⟩
  | .hbm, ⟨28, _⟩ => ⟨S600000x128, .f32⟩
  | .hbm, ⟨29, _⟩ => ⟨S600000x128, .f32⟩
  | .hbm, ⟨30, _⟩ => ⟨S_, .f32⟩
  | .hbm, ⟨31, _⟩ => ⟨S600000x128, .f32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S_, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_cst_1 : Ref sig .tc := ⟨.hbm, 69, rfl⟩
abbrev main_call2_v8 : Ref sig .tc := ⟨.hbm, 70, rfl⟩
abbrev main_call2_cst_2 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_cst_3 : Ref sig .tc := ⟨.hbm, 75, rfl⟩
abbrev main_call2_v12 : Ref sig .tc := ⟨.hbm, 76, rfl⟩
abbrev main_call2_cst_4 : Ref sig .tc := ⟨.hbm, 77, rfl⟩
abbrev main_call2_call0_v0 : Ref sig .tc := ⟨.hbm, 78, rfl⟩
abbrev main_call2_call0_v1 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_5 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call3_cst : Ref sig .tc := ⟨.hbm, 97, rfl⟩
abbrev main_call3_v0 : Ref sig .tc := ⟨.hbm, 98, rfl⟩
abbrev main_v52 : Ref sig .tc := ⟨.hbm, 99, rfl⟩
abbrev main_v53 : Ref sig .tc := ⟨.hbm, 100, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S600000x1_S600000x128_1_0_n_n_0_1_1128_wf : GatherDims.WF S50000x128 S600000x1 S600000x128 [1] [0] [] [0] [] 1 ![1, 128]
  dot_S600000x64_S64x128_S600000x128_1_0_0_1_n_n_wf : DotDims.WF S600000x64 S64x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, stated once, index by index, on the extended reals.

  A graph layer over 50000 nodes with 128 features. With x the node features, aggr the summed edge messages and ope the scalar
  1 + eps (held in every place of a 128-vector), a node's row is first combined (ope · x + aggr), sent through two affine maps with a rectifier between them
  (the entries of W1, b1, W2, b2), then normalised per feature over all nodes: mu is the mean of a column, var the mean
  of the squared deviations from mu, and the result is max(((h − mu) · rsqrt(var + ε)) · γ + β, 0) + x.
  Sums are finite sums of extended reals; no operation rounds.
-/
import Idealize.ShloMosaic.PureOps.Ideal
import Idealize.ShloMosaic.Lib.ValueIdx

noncomputable section

namespace Cert.Spec

open Idealize.ShloMosaic Idealize.ShloMosaic.ValueIdx
open scoped BigOperators

/-- An a × b array of extended reals. -/
abbrev Mat (a b : Nat) := (⟨2, ![a, b]⟩ : Shape).Idx → EReal
/-- A length-a array of extended reals. -/
abbrev Vc (a : Nat) := (⟨1, ![a]⟩ : Shape).Idx → EReal

/-- The number of nodes, 50000, as the extended real its float pattern denotes. -/
def nE : EReal := Ideal.ofBits .f32 0x47435000#32
/-- The normalisation's ε (the float nearest 1e-5). -/
def epsE : EReal := Ideal.ofBits .f32 0x3727C5AC#32

/-- Entry (n, q) of the combined input ope[q] · x[n, q] + aggr[n, q] (ope holds the scalar 1 + eps in every place). -/
def pre (x aggr : Mat 50000 128) (ope : Vc 128) (n : Fin 50000) (q : Fin 128) : EReal :=
  ope (ix1 q) * x (ix2 n q) + aggr (ix2 n q)

/-- Entry (n, k) of the hidden layer: max(∑_q pre[n, q] · W1[q, k] + b1[k], 0). -/
def hid (x aggr : Mat 50000 128) (ope : Vc 128) (W1 : Mat 128 128) (b1 : Vc 128) (n : Fin 50000) (k : Fin 128) : EReal :=
  max ((∑ q : Fin 128, pre x aggr ope n q * W1 (ix2 q k)) + b1 (ix1 k)) 0

/-- Entry (n, j) of the second affine map: ∑_k hid[n, k] · W2[k, j] + b2[j]. -/
def hmlp (x aggr : Mat 50000 128) (ope : Vc 128) (W1 : Mat 128 128) (b1 : Vc 128) (W2 : Mat 128 128) (b2 : Vc 128) : Mat 50000 128 :=
  fun i => (∑ k : Fin 128, hid x aggr ope W1 b1 (i 0) k * W2 (ix2 k (i 1))) + b2 (ix1 (i 1))

/-- The mean of column j over the 50000 nodes. -/
def mu (h : Mat 50000 128) : Vc 128 :=
  fun j => Ideal.div (∑ n : Fin 50000, h (ix2 n (j 0))) nE

/-- The mean over the nodes of the squared deviation of column j from a centre c[j]. -/
def var (h : Mat 50000 128) (c : Vc 128) : Vc 128 :=
  fun j => Ideal.div (∑ n : Fin 50000, (h (ix2 n (j 0)) - c j) * (h (ix2 n (j 0)) - c j)) nE

/-- The normalised, rectified row plus the residual: max(((h − m) · rsqrt(v + ε)) · γ + β, 0) + x. -/
def out (h x : Mat 50000 128) (m v g b : Vc 128) : Mat 50000 128 :=
  fun i => max ((h i - m (ix1 (i 1))) * Ideal.rsqrt (v (ix1 (i 1)) + epsE) * g (ix1 (i 1)) + b (ix1 (i 1))) 0 + x i

/-- Row r of tile t when the 50000 rows are cut into 10 tiles of 5000. -/
def row5k (t : Fin 10) (r : Fin 5000) : Fin 50000 := ⟨5000 * t.val + r.val, by have := t.isLt; have := r.isLt; omega⟩
/-- Row r of tile t when the 50000 rows are cut into 5 tiles of 10000. -/
def row10k (t : Fin 5) (r : Fin 10000) : Fin 50000 := ⟨10000 * t.val + r.val, by have := t.isLt; have := r.isLt; omega⟩

/-- A 10 × 8 × 128 array holding, in row 0 of tile t, the column sums of rows 5000 t … 5000 t + 4999 of h, and zeros in rows 1 … 7. -/
def sumParts (h : Mat 50000 128) : (⟨3, ![10, 8, 128]⟩ : Shape).Idx → EReal :=
  fun i => if (i 1).val = 0 then ∑ r : Fin 5000, h (ix2 (row5k (i 0) r) (i 2)) else 0

/-- A 5 × 8 × 128 array holding, in row 0 of tile t, the column sums over rows 10000 t … 10000 t + 9999 of the squared
    deviations of h from a centre c, and zeros in rows 1 … 7. -/
def sqParts (h : Mat 50000 128) (c : Vc 128) : (⟨3, ![5, 8, 128]⟩ : Shape).Idx → EReal :=
  fun i => if (i 1).val = 0 then
      ∑ r : Fin 10000, (h (ix2 (row10k (i 0) r) (i 2)) - c (ix1 (i 2)))
        * (h (ix2 (row10k (i 0) r) (i 2)) - c (ix1 (i 2)))
    else 0

/-- The whole layer from the combined pieces. -/
def layer (x aggr : Mat 50000 128) (ope : Vc 128) (W1 : Mat 128 128) (b1 : Vc 128) (W2 : Mat 128 128) (b2 : Vc 128) (g b : Vc 128) :
    Mat 50000 128 :=
  out (hmlp x aggr ope W1 b1 W2 b2) x (mu (hmlp x aggr ope W1 b1 W2 b2)) (var (hmlp x aggr ope W1 b1 W2 b2) (mu (hmlp x aggr ope W1 b1 W2 b2))) g b

end Cert.Spec

end
-- ==== Proof.KTerm.lean ====
/-
  The host-side pieces of the kernel's program as composed terms of its argument arrays: the rectified edge
  messages (the bias added to the projected edge features first, then the gathered source rows), their sum per
  destination node, the scalar 1 + eps repeated along a 128-vector, and the mean and the variance as the program forms
  them from the per-tile partial sums its second and third stages read.
-/
import proofs.«412922_j60601988547138_3_alg».proof.KernelIdeal

noncomputable section

namespace Cert.KernelIdeal.KTerm

open Idealize.ShloMosaic Cert.KernelIdeal Cert.KernelIdeal.Facts₀

variable {F : FTy → Type} [FloatOps F] [Facts]

/-- Row 0 of the edge list (the source nodes) as a column of index words, a negative word shifted up by the number of nodes. -/
def srcIdx (ei : IVec S2x600000 32) : IVec S600000x1 32 :=
  broadcastInDim S600000x1 ![0] bcast_S600000_S600000x1_0
    (select (cmpi .slt (shapeCast S600000 (extractStridedSlice S1x600000 ![0, 0] ei slices_S2x600000_S1x600000_0_0) shapeCasts_S1x600000_S600000)
        (broadcastInDim S600000 ![] bcast_S_S600000 (constantI S_ 32 0#32)))
      (addi (shapeCast S600000 (extractStridedSlice S1x600000 ![0, 0] ei slices_S2x600000_S1x600000_0_0) shapeCasts_S1x600000_S600000)
        (broadcastInDim S600000 ![] bcast_S_S600000 (constantI S_ 32 50000#32)))
      (shapeCast S600000 (extractStridedSlice S1x600000 ![0, 0] ei slices_S2x600000_S1x600000_0_0) shapeCasts_S1x600000_S600000))

/-- Row 1 of the edge list (the destination nodes) as a column of index words. -/
def dstIdx (ei : IVec S2x600000 32) : IVec S600000x1 32 :=
  broadcastInDim S600000x1 ![0] bcast_S600000_S600000x1_0
    (shapeCast S600000 (extractStridedSlice S1x600000 ![1, 0] ei slices_S2x600000_S1x600000_1_0) shapeCasts_S1x600000_S600000)

/-- The rectified edge messages: x[src] + (edge_attr · We + be), the product taken on operands narrowed to bf16, then max with 0. -/
def msg (x : Vec F S50000x128 .f32) (ea : Vec F S600000x64 .f32) (We : Vec F S64x128 .f32) (be : Vec F S128 .f32) (ei : IVec S2x600000 32) :
    Vec F S600000x128 .f32 :=
  maximumf
    (addf (Host.gather gather_S50000x128_S600000x1_S600000x128_1_0_n_n_0_1_1128 x (srcIdx ei))
      (addf (Host.dotGeneral dot_S600000x64_S64x128_S600000x128_1_0_0_1_n_n none (truncf .bf16 ea bitsLt_bf16_f32) (truncf .bf16 We bitsLt_bf16_f32))
        (broadcastInDim S600000x128 ![0, 1] bcast_S1x128_S600000x128_0_1 (broadcastInDim S1x128 ![1] bcast_S128_S1x128_1 be))))
    (broadcastInDim S600000x128 ![] bcast_S_S600000x128 (constant S_ .f32 0x00000000#32))

/-- The messages summed per destination node, into zeros. -/
def aggr (x : Vec F S50000x128 .f32) (ea : Vec F S600000x64 .f32) (We : Vec F S64x128 .f32) (be : Vec F S128 .f32) (ei : IVec S2x600000 32) :
    Vec F S50000x128 .f32 :=
  Host.scatterAdd scatter_S50000x128_S600000x1_S600000x128_1_0_0_1
    (broadcastInDim S50000x128 ![] bcast_S_S50000x128 (constant S_ .f32 0x00000000#32)) (dstIdx ei) (msg x ea We be ei)

/-- The scalar 1 + eps repeated along a 128-vector. -/
def ope (eps : Vec F S_ .f32) : Vec F S128 .f32 :=
  broadcastInDim S128 ![] bcast_S_S128 (addf (constant S_ .f32 0x3F800000#32) eps)

/-- The mean as the program forms it: every entry of the 10 × 8 × 128 partial sums added per feature, over 50000. -/
def meanOf (parts : Vec F S10x8x128 .f32) : Vec F S128 .f32 :=
  Host.divf (Host.reduceAdd parts (constant S_ .f32 0x00000000#32) reducesTo_S10x8x128_S128_d0_1 h_S_)
    (broadcastInDim S128 ![] bcast_S_S128 (constant S_ .f32 0x47435000#32))

/-- The variance as the program forms it: every entry of the 5 × 8 × 128 partial sums of squares added per feature,
    over 50000, then max with 0. -/
def varOf (parts : Vec F S5x8x128 .f32) : Vec F S128 .f32 :=
  maximumf
    (Host.divf (Host.reduceAdd parts (constant S_ .f32 0x00000000#32) reducesTo_S5x8x128_S128_d0_1 h_S_)
      (broadcastInDim S128 ![] bcast_S_S128 (constant S_ .f32 0x47435000#32)))
    (broadcastInDim S128 ![] bcast_S_S128 (constant S_ .f32 0x00000000#32))

end Cert.KernelIdeal.KTerm

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.R0.lean ====
/-
  Region 0 of the graph layer: each 5000-row tile of the node features is combined with the summed messages,
  sent through the two affine maps with the rectifier between them, and stored as the matching tile of h; beside it
  the tile's column sums are stored in row 0 of an 8-row slab, rows 1 … 7 zero. Here the two arrays the region
  leaves are identified, index by index, with the shared specification's hmlp and sumParts of the arrays the
  region finds.
-/
import proofs.«412922_j60601988547138_3_alg».proof.Proof.Gen.KernelIdeal.Frame
import proofs.«412922_j60601988547138_3_alg».proof.Proof.Spec
import proofs.«412922_j60601988547138_3_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's two stored values, entry by entry -/

/-- The matrix-product record of the body is the plain 5000×128 by 128×128 product. -/
theorem dot_eq_plain : dot_S5000x128_S128x128_S5000x128_1_0_0_1_n_n = DotDims.plain 5000 128 128 := rfl

/-- A length-128 vector laid as one row and repeated down 5000 rows reads, at (p, j), its entry j. -/
theorem row_bcast_apply (v : Vec Ideal S128 .f32) (p : Fin 5000) (j : Fin 128) :
    broadcastTo S5000x128 (shapeCast S1x128 v shapeCasts_S128_S1x128) broadcasts_S1x128_S5000x128 (ix2 p j) = v (ix1 j) :=
  (broadcastTo_1b_ab_apply _ broadcasts_S1x128_S5000x128 p j).trans
    (shapeCast_a_1a_apply v shapeCasts_S128_S1x128 0 j)

/-- Entry (p, j) of the stored tile: the second affine map of the rectified first affine map of ope · x + aggr. -/
theorem pay1_apply (v0 : Vec Ideal S128 .f32) (v2 v6 : Vec Ideal S5000x128 .f32) (v10 : Vec Ideal S128x128 .f32)
    (v13 : Vec Ideal S128 .f32) (v20 : Vec Ideal S128x128 .f32) (v23 : Vec Ideal S128 .f32) (p : Fin 5000) (j : Fin 128) :
    k0_pay1 (F := Ideal) v0 v2 v6 v10 v13 v20 v23 (ix2 p j)
      = (∑ k : Fin 128, max ((∑ q : Fin 128, (v0 (ix1 q) * v2 (ix2 p q) + v6 (ix2 p q)) * v10 (ix2 q k)) + v13 (ix1 k)) 0
          * v20 (ix2 k j)) + v23 (ix1 j) := by
  unfold k0_pay1
  rw [dot_eq_plain]
  refine (addf_apply (φ := .f32) _ _ (ix2 p j)).trans ?_
  refine congrArg₂ (· + ·) ?_ (row_bcast_apply v23 p j)
  refine (Cert.LibMatmulPlain.matmul_plain_apply _ _ p j).trans ?_
  refine Finset.sum_congr rfl fun k _ => ?_
  refine congrArg₂ (· * ·) ?_ (truncf_apply (φ := .f32) (ψ := .bf16) v20 bitsLt_bf16_f32 (ix2 k j))
  refine (truncf_apply (φ := .f32) (ψ := .bf16) _ bitsLt_bf16_f32 (ix2 p k)).trans ?_
  refine (maximumf_apply (φ := .f32) _ _ (ix2 p k)).trans ?_
  refine congrArg₂ max ?_ ?_
  · refine (addf_apply (φ := .f32) _ _ (ix2 p k)).trans ?_
    refine congrArg₂ (· + ·) ?_ (row_bcast_apply v13 p k)
    refine (Cert.LibMatmulPlain.matmul_plain_apply _ _ p k).trans ?_
    refine Finset.sum_congr rfl fun q _ => ?_
    refine congrArg₂ (· * ·) ?_ (truncf_apply (φ := .f32) (ψ := .bf16) v10 bitsLt_bf16_f32 (ix2 q k))
    refine (truncf_apply (φ := .f32) (ψ := .bf16) _ bitsLt_bf16_f32 (ix2 p q)).trans ?_
    refine (addf_apply (φ := .f32) _ _ (ix2 p q)).trans ?_
    refine congrArg₂ (· + ·) ?_ ?_
    · refine (mulf_apply (φ := .f32) _ _ (ix2 p q)).trans ?_
      refine congrArg₂ (· * ·) ?_ rfl
      rw [shapeCast_self]
      exact row_bcast_apply v0 p q
    · rw [shapeCast_self]
  · exact Ideal.ofBits_zero_f32

/-- Choosing by the test "the row number is 0", for a row number below 8, is the case split on the row number. -/
theorem select_row0 {α : Type} (r : Fin 8) (A B : α) :
    Scalar.select (IntOp.cmpi .eq (BitVec.ofNat 32 r.val) 0#32) A B = if r.val = 0 then A else B := by
  fin_cases r <;> rfl

/-- The column sums of a 5000 × 128 array, read at column j. -/
theorem colsum_apply (src : FVec Ideal S5000x128 .f32) (hφ : FKind.Formats .f32)
    (hacc : (0x00000000#32 : BitVec 32) = FKind.add.neutral .f32 hφ) (j : Fin 128) :
    multiReduction .add [0] S128 src 0x00000000#32 reduces_S5000x128_S128 hφ hacc (ix1 j)
      = ∑ p : Fin 5000, src (ix2 p j) := by
  refine (Ideal.multiReduction_add_single src 0x00000000#32 reduces_S5000x128_S128 hφ hacc (ix1 j)).trans ?_
  refine Finset.sum_congr rfl fun p _ => congrArg src ?_
  funext a
  apply Fin.ext
  match a with
  | ⟨0, _⟩ => rfl
  | ⟨1, _⟩ => rfl

/-- A length-128 vector laid as one row of a 1 × 8 × 128 slab and repeated down its 8 rows reads, at (u, r, j), its entry j. -/
theorem slab_bcast_apply (v : FVec Ideal S128 .f32) (u : Fin 1) (r : Fin 8) (j : Fin 128) :
    broadcastTo S1x8x128 (shapeCast S1x1x128 (shapeCast S1x1x128 v shapeCasts_S128_S1x1x128) shapeCasts_S1x1x128_S1x1x128)
      broadcasts_S1x1x128_S1x8x128 (ix3 u r j) = v (ix1 j) := by
  rw [shapeCast_self]
  refine (broadcastTo_apply _ broadcasts_S1x1x128_S1x8x128 (ix3 u r j) (ix3 (0 : Fin 1) (0 : Fin 1) j) fun a => ?_).trans ?_
  · match a with
    | ⟨0, _⟩ => rfl
    | ⟨1, _⟩ => rfl
    | ⟨2, _⟩ => rfl
  · refine shapeCast_apply v shapeCasts_S128_S1x1x128 _ (ix1 j) ?_
    rw [Shape.rowMajor_val_three, Shape.rowMajor_val_one]
    show j.val = ((0 : Fin 1).val * 1 + (0 : Fin 1).val) * 128 + j.val
    simp

/-- Entry (u, r, j) of the stored slab: the column sum of the stored tile in row 0, zero in rows 1 … 7. -/
theorem pay2_apply (v0 : Vec Ideal S128 .f32) (v2 v6 : Vec Ideal S5000x128 .f32) (v10 : Vec Ideal S128x128 .f32)
    (v13 : Vec Ideal S128 .f32) (v20 : Vec Ideal S128x128 .f32) (v23 : Vec Ideal S128 .f32) (u : Fin 1) (r : Fin 8) (j : Fin 128) :
    k0_pay2 (F := Ideal) v0 v2 v6 v10 v13 v20 v23 (ix3 u r j)
      = if r.val = 0 then ∑ p : Fin 5000, k0_pay1 (F := Ideal) v0 v2 v6 v10 v13 v20 v23 (ix2 p j) else 0 := by
  unfold k0_pay2
  refine (select_apply _ _ _ (ix3 u r j)).trans ?_
  refine (congrArg (fun b => Scalar.select b _ _) (show cmpi .eq (iota .tc S1x8x128 32 [1] iota_S1x8x128_d1_w32) (broadcast S1x8x128 0#32) (ix3 u r j) = IntOp.cmpi .eq (BitVec.ofNat 32 r.val) 0#32 from ?_)).trans ?_
  · show IntOp.cmpi .eq (iota .tc S1x8x128 32 [1] iota_S1x8x128_d1_w32 (ix3 u r j)) 0#32 = _
    rw [iota_single_apply]
  refine (select_row0 r _ _).trans ?_
  refine if_congr Iff.rfl ?_ Ideal.ofBits_zero_f32
  exact (slab_bcast_apply _ u r j).trans (colsum_apply _ _ _ j)

/-! ## The windows' blocks as entries of the arrays -/

variable (V : (c : Dev nD) → (b : Ref sig .tc) → Buf (Elt Ideal) ((c : Thread nD τ).loc b))

/-- The region's grid has ten points. -/
theorem tile_lt (t : Fin cfg0.N) : t.val < 10 := by
  exact lt_of_lt_of_eq t.isLt (show cfg0.N = 10 from N_0)

/-- A grid point of the region as a tile number. -/
def tile (t : Fin cfg0.N) : Fin 10 := ⟨t.val, tile_lt t⟩

/-- The block index of every window at every point, decided over the grid: the row-tiled windows sit at block (t, 0)
    (the slab window at (t, 0, 0)), the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- Entry (p, q) of the node-feature tile at point t is row 5000 t + p of x. -/
theorem iblk_x (c : Dev nD) (t : Fin cfg0.N) (p : Fin 5000) (q : Fin 128) :
    (iblk0 (F := Ideal) V c 0 t : Vec Ideal S5000x128 .f32) (ix2 p q)
      = (V c main_arg0 : Cert.Spec.Mat 50000 128) (ix2 (Cert.Spec.row5k (tile t) p) q) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * q.val = q.val; rw [e1]; omega

/-- The scalar vector's block is the vector. -/
theorem iblk_ope (c : Dev nD) (t : Fin cfg0.N) (q : Fin 128) :
    (iblk0 (F := Ideal) V c 2 t : Vec Ideal S128 .f32) (ix1 q) = (V c main_v23 : Cert.Spec.Vc 128) (ix1 q) := by
  obtain ⟨-, -, -, -, e0, -⟩ := idx_facts t
  unfold iblk0
  rw [View.read_apply]
  show V c main_v23 _ = V c main_v23 _
  congr 1
  funext a
  apply Fin.ext
  match a with
  | ⟨0, _⟩ => show win0_2.index t 0 * 128 + 1 * q.val = q.val; rw [e0]; omega

/-- Entry (p, q) of the summed-message tile at point t is row 5000 t + p of aggr. -/
theorem iblk_aggr (c : Dev nD) (t : Fin cfg0.N) (p : Fin 5000) (q : Fin 128) :
    (iblk0 (F := Ideal) V c 1 t : Vec Ideal S5000x128 .f32) (ix2 p q)
      = (V c main_v21 : Cert.Spec.Mat 50000 128) (ix2 (Cert.Spec.row5k (tile t) p) q) := by
  obtain ⟨-, -, e0, e1, -⟩ := idx_facts t
  unfold iblk0
  rw [View.read_apply]
  show V c main_v21 _ = V c main_v21 _
  congr 1
  funext a
  apply Fin.ext
  match a with
  | ⟨0, _⟩ => show win0_1.index t 0 * 5000 + 1 * p.val = 5000 * t.val + p.val; rw [e0]; omega
  | ⟨1, _⟩ => show win0_1.index t 1 * 128 + 1 * q.val = q.val; rw [e1]; omega

/-- The first weight matrix's block is the matrix. -/
theorem iblk_W1 (c : Dev nD) (t : Fin cfg0.N) (q k : Fin 128) :
    (iblk0 (F := Ideal) V c 3 t : Vec Ideal S128x128 .f32) (ix2 q k) = (V c main_arg4 : Cert.Spec.Mat 128 128) (ix2 q k) := by
  obtain ⟨-, -, -, -, -, e0, e1, -⟩ := idx_facts t
  unfold iblk0
  rw [View.read_apply]
  show V c main_arg4 _ = V c main_arg4 _
  congr 1
  funext a
  apply Fin.ext
  match a with
  | ⟨0, _⟩ => show win0_3.index t 0 * 128 + 1 * q.val = q.val; rw [e0]; omega
  | ⟨1, _⟩ => show win0_3.index t 1 * 128 + 1 * k.val = k.val; rw [e1]; omega

/-- The first bias vector's block is the vector. -/
theorem iblk_b1 (c : Dev nD) (t : Fin cfg0.N) (k : Fin 128) :
    (iblk0 (F := Ideal) V c 4 t : Vec Ideal S128 .f32) (ix1 k) = (V c main_arg5 : Cert.Spec.Vc 128) (ix1 k) := by
  obtain ⟨-, -, -, -, -, -, -, e0, -⟩ := idx_facts t
  unfold iblk0
  rw [View.read_apply]
  show V c main_arg5 _ = V c main_arg5 _
  congr 1
  funext a
  apply Fin.ext
  match a with
  | ⟨0, _⟩ => show win0_4.index t 0 * 128 + 1 * k.val = k.val; rw [e0]; omega

/-- The second weight matrix's block is the matrix. -/
theorem iblk_W2 (c : Dev nD) (t : Fin cfg0.N) (k j : Fin 128) :
    (iblk0 (F := Ideal) V c 5 t : Vec Ideal S128x128 .f32) (ix2 k j) = (V c main_arg6 : Cert.Spec.Mat 128 128) (ix2 k j) := by
  obtain ⟨-, -, -, -, -, -, -, -, e0, e1, -⟩ := idx_facts t
  unfold iblk0
  rw [View.read_apply]
  show V c main_arg6 _ = V c main_arg6 _
  congr 1
  funext a
  apply Fin.ext
  match a with
  | ⟨0, _⟩ => show win0_5.index t 0 * 128 + 1 * k.val = k.val; rw [e0]; omega
  | ⟨1, _⟩ => show win0_5.index t 1 * 128 + 1 * j.val = j.val; rw [e1]; omega

/-- The second bias vector's block is the vector. -/
theorem iblk_b2 (c : Dev nD) (t : Fin cfg0.N) (j : Fin 128) :
    (iblk0 (F := Ideal) V c 6 t : Vec Ideal S128 .f32) (ix1 j) = (V c main_arg7 : Cert.Spec.Vc 128) (ix1 j) := by
  obtain ⟨-, -, -, -, -, -, -, -, -, -, e0, -⟩ := idx_facts t
  unfold iblk0
  rw [View.read_apply]
  show V c main_arg7 _ = V c main_arg7 _
  congr 1
  funext a
  apply Fin.ext
  match a with
  | ⟨0, _⟩ => show win0_6.index t 0 * 128 + 1 * j.val = j.val; rw [e0]; omega

/-! ## What a point writes back -/

/-- The hidden-layer output the region computes, as a function of the arrays it finds. -/
abbrev H (c : Dev nD) : Cert.Spec.Mat 50000 128 :=
  Cert.Spec.hmlp (V c main_arg0) (V c main_v21) (V c main_v23) (V c main_arg4) (V c main_arg5) (V c main_arg6) (V c main_arg7)

/-- The stored tile at point t, at (p, j), is entry (5000 t + p, j) of the hidden-layer output. -/
theorem tile_eq (c : Dev nD) (t : Fin cfg0.N) (p : Fin 5000) (j : Fin 128) :
    k0_pay1 (F := Ideal) (iblk0 V c 2 t) (iblk0 V c 0 t) (iblk0 V c 1 t) (iblk0 V c 3 t) (iblk0 V c 4 t) (iblk0 V c 5 t) (iblk0 V c 6 t) (ix2 p j)
      = H V c (ix2 (Cert.Spec.row5k (tile t) p) j) := by
  refine (pay1_apply _ _ _ _ _ _ _ p j).trans ?_
  exact congrArg₂ (· + ·)
    (Finset.sum_congr rfl fun k _ => congrArg₂ (· * ·)
      (congrArg₂ max
        (congrArg₂ (· + ·)
          (Finset.sum_congr rfl fun q _ => congrArg₂ (· * ·)
            (congrArg₂ (· + ·) (congrArg₂ (· * ·) (iblk_ope V c t q) (iblk_x V c t p q)) (iblk_aggr V c t p q))
            (iblk_W1 V c t q k))
          (iblk_b1 V c t k))
        rfl)
      (iblk_W2 V c t k j))
    (iblk_b2 V c t j)

/-- The stored slab at point t, at (u, r, j), is entry (t, r, j) of the tiles' column sums. -/
theorem slab_eq (c : Dev nD) (t : Fin cfg0.N) (u : Fin 1) (r : Fin 8) (j : Fin 128) :
    k0_pay2 (F := Ideal) (iblk0 V c 2 t) (iblk0 V c 0 t) (iblk0 V c 1 t) (iblk0 V c 3 t) (iblk0 V c 4 t) (iblk0 V c 5 t) (iblk0 V c 6 t) (ix3 u r j)
      = Cert.Spec.sumParts (H V c) (ix3 (tile t) r j) := by
  refine (pay2_apply _ _ _ _ _ _ _ u r j).trans ?_
  exact if_congr Iff.rfl (Finset.sum_congr rfl fun p _ => tile_eq V c t p j) rfl

/-- The zero offsets of a whole-block access, at ranks 1, 2 and 3. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What point t writes back through the tile window is block t of the hidden-layer output. -/
theorem flushed7_eq (c : Dev nD) (t : Fin cfg0.N) :
    (dat0 (F := Ideal) V c).flushed 7 t = ((cfg0.win 7).blk t).view.read (Elt Ideal) (H V c) := by
  show (cfg0.win 7).cut (grid0.coords t) ((dat0 (F := Ideal) V c).after 7 t) = _
  rw [after0_7]
  unfold out0_7
  rw [View.canon_unit_zero hz2]
  simp only [View.ld_unit_zero (S := S5000x128) hz2, View.ld_unit_zero (S := S128x128) hz2, View.ld_unit_zero (S := S128) hz1]
  obtain ⟨-, -, -, -, -, -, -, -, -, -, -, e0, e1, -⟩ := idx_facts t
  funext y
  show k0_pay1 (F := Ideal) (iblk0 V c 2 t) (iblk0 V c 0 t) (iblk0 V c 1 t) (iblk0 V c 3 t) (iblk0 V c 4 t) (iblk0 V c 5 t) (iblk0 V c 6 t) y
    = H V c (((cfg0.win 7).blk t).view.emb y)
  have hy : (y : S5000x128.Idx) = ix2 (y 0) (y 1) := eq_ix2 (n0 := 5000) (n1 := 128) y
  refine (congrArg (k0_pay1 (F := Ideal) (iblk0 V c 2 t) (iblk0 V c 0 t) (iblk0 V c 1 t) (iblk0 V c 3 t) (iblk0 V c 4 t) (iblk0 V c 5 t) (iblk0 V c 6 t)) hy).trans ?_
  refine (tile_eq V c t (y 0) (y 1)).trans ?_
  refine congrArg (H V c) ?_
  funext a
  apply Fin.ext
  match a with
  | ⟨0, _⟩ => show 5000 * t.val + (y 0).val = win0_7.index t 0 * 5000 + 1 * (y 0).val; rw [e0]; omega
  | ⟨1, _⟩ => show (y 1).val = win0_7.index t 1 * 128 + 1 * (y 1).val; rw [e1]; omega

/-- What point t writes back through the slab window is block t of the tiles' column sums. -/
theorem flushed8_eq (c : Dev nD) (t : Fin cfg0.N) :
    (dat0 (F := Ideal) V c).flushed 8 t = ((cfg0.win 8).blk t).view.read (Elt Ideal) (Cert.Spec.sumParts (H V c)) := by
  show (cfg0.win 8).cut (grid0.coords t) ((dat0 (F := Ideal) V c).after 8 t) = _
  rw [after0_8]
  unfold out0_8
  rw [View.canon_unit_zero hz3]
  simp only [View.ld_unit_zero (S := S5000x128) hz2, View.ld_unit_zero (S := S128x128) hz2, View.ld_unit_zero (S := S128) hz1]
  obtain ⟨-, -, -, -, -, -, -, -, -, -, -, -, -, e0, e1, e2⟩ := idx_facts t
  funext y
  show k0_pay2 (F := Ideal) (iblk0 V c 2 t) (iblk0 V c 0 t) (iblk0 V c 1 t) (iblk0 V c 3 t) (iblk0 V c 4 t) (iblk0 V c 5 t) (iblk0 V c 6 t) y
    = Cert.Spec.sumParts (H V c) (((cfg0.win 8).blk t).view.emb y)
  have hy : (y : S1x8x128.Idx) = ix3 (y 0) (y 1) (y 2) := eq_ix3 (n0 := 1) (n1 := 8) (n2 := 128) y
  refine (congrArg (k0_pay2 (F := Ideal) (iblk0 V c 2 t) (iblk0 V c 0 t) (iblk0 V c 1 t) (iblk0 V c 3 t) (iblk0 V c 4 t) (iblk0 V c 5 t) (iblk0 V c 6 t)) hy).trans ?_
  refine (slab_eq V c t (y 0) (y 1) (y 2)).trans ?_
  refine congrArg (Cert.Spec.sumParts (H V c)) ?_
  have hy0 : (y 0).val < 1 := (y 0).isLt
  funext a
  apply Fin.ext
  match a with
  | ⟨0, _⟩ => show t.val = win0_8.index t 0 * 1 + 1 * (y 0).val; rw [e0]; omega
  | ⟨1, _⟩ => show (y 1).val = win0_8.index t 1 * 8 + 1 * (y 1).val; rw [e1]; omega
  | ⟨2, _⟩ => show (y 2).val = win0_8.index t 2 * 128 + 1 * (y 2).val; rw [e2]; omega

/-! ## The arrays after the region -/

/-- The tile window's array ends holding the hidden-layer output: row n lies in tile n / 5000. -/
theorem final0_7 (c : Dev nD) : (dat0 (F := Ideal) V c).arrAt 7 cfg0.N
    = Cert.Spec.hmlp (V c main_arg0) (V c main_v21) (V c main_v23) (V c main_arg4) (V c main_arg5) (V c main_arg6) (V c main_arg7) :=
  (dat0 (F := Ideal) V c).arrAt_eq_of_cover 7 (H V c) (fun t _ => flushed7_eq V c t) fun i => by
    have hi0 : (i 0).val < 50000 := (i 0).isLt
    have hi1 : (i 1).val < 128 := (i 1).isLt
    have hlt : (i 0).val / 5000 < cfg0.N := lt_of_lt_of_eq (by omega : (i 0).val / 5000 < 10) (show cfg0.N = 10 from N_0).symm
    refine ⟨⟨(i 0).val / 5000, hlt⟩, flush0_7 _, ?_⟩
    obtain ⟨-, -, -, -, -, -, -, -, -, -, -, e0, e1, -⟩ := idx_facts ⟨(i 0).val / 5000, hlt⟩
    show i ∈ ((View.whole main_v24_0).slice (win0_7.rect ⟨(i 0).val / 5000, hlt⟩)).set
    rw [View.set_slice_whole, Rect.mem_set_unit]
    intro a
    match a with
    | ⟨0, _⟩ =>
      show win0_7.index ⟨(i 0).val / 5000, hlt⟩ 0 * 5000 ≤ (i 0).val ∧ (i 0).val < win0_7.index ⟨(i 0).val / 5000, hlt⟩ 0 * 5000 + 5000
      rw [e0]; show (i 0).val / 5000 * 5000 ≤ (i 0).val ∧ (i 0).val < (i 0).val / 5000 * 5000 + 5000; omega
    | ⟨1, _⟩ =>
      show win0_7.index ⟨(i 0).val / 5000, hlt⟩ 1 * 128 ≤ (i 1).val ∧ (i 1).val < win0_7.index ⟨(i 0).val / 5000, hlt⟩ 1 * 128 + 128
      rw [e1]; omega

/-- The slab window's array ends holding the tiles' column sums: slab n is point n's. -/
theorem final0_8 (c : Dev nD) : (dat0 (F := Ideal) V c).arrAt 8 cfg0.N
    = Cert.Spec.sumParts (Cert.Spec.hmlp (V c main_arg0) (V c main_v21) (V c main_v23) (V c main_arg4) (V c main_arg5) (V c main_arg6) (V c main_arg7)) :=
  (dat0 (F := Ideal) V c).arrAt_eq_of_cover 8 (Cert.Spec.sumParts (H V c)) (fun t _ => flushed8_eq V c t) fun i => by
    have hi0 : (i 0).val < 10 := (i 0).isLt
    have hi1 : (i 1).val < 8 := (i 1).isLt
    have hi2 : (i 2).val < 128 := (i 2).isLt
    have hlt : (i 0).val < cfg0.N := lt_of_lt_of_eq hi0 (show cfg0.N = 10 from N_0).symm
    refine ⟨⟨(i 0).val, hlt⟩, flush0_8 _, ?_⟩
    obtain ⟨-, -, -, -, -, -, -, -, -, -, -, -, -, e0, e1, e2⟩ := idx_facts ⟨(i 0).val, hlt⟩
    show i ∈ ((View.whole main_v24_1).slice (win0_8.rect ⟨(i 0).val, hlt⟩)).set
    rw [View.set_slice_whole, Rect.mem_set_unit]
    intro a
    match a with
    | ⟨0, _⟩ =>
      show win0_8.index ⟨(i 0).val, hlt⟩ 0 * 1 ≤ (i 0).val ∧ (i 0).val < win0_8.index ⟨(i 0).val, hlt⟩ 0 * 1 + 1
      rw [e0]; show (i 0).val * 1 ≤ (i 0).val ∧ (i 0).val < (i 0).val * 1 + 1; omega
    | ⟨1, _⟩ =>
      show win0_8.index ⟨(i 0).val, hlt⟩ 1 * 8 ≤ (i 1).val ∧ (i 1).val < win0_8.index ⟨(i 0).val, hlt⟩ 1 * 8 + 8
      rw [e1]; omega
    | ⟨2, _⟩ =>
      show win0_8.index ⟨(i 0).val, hlt⟩ 2 * 128 ≤ (i 2).val ∧ (i 2).val < win0_8.index ⟨(i 0).val, hlt⟩ 2 * 128 + 128
      rw [e2]; omega

end Cert.KernelIdeal.R0

end
-- ==== Proof.R1.lean ====
/-
  Region 1: the squared deviations' partial column sums.

  Each of the 5 grid points reads a tile of 10000 rows of h and the whole centre vector c, and writes one [1, 8, 128]
  block: row 0 holds, per column, the sum over the tile's rows of (h − c)², rows 1 … 7 hold zero. The blocks tile the
  [5, 8, 128] result, which therefore ends as Spec.sqParts h c.
-/
import proofs.«412922_j60601988547138_3_alg».proof.Proof.Gen.KernelIdeal.Frame
import proofs.«412922_j60601988547138_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The payload at an index -/

/-- The mask "row r of 8 is row 0", as a choice between two values. -/
theorem select_row0 {α : Type} (r : Nat) (hr : r < 8) (A B : α) :
    Scalar.select (IntOp.cmpi .eq (BitVec.ofNat 32 r) 0#32) A B = if r = 0 then A else B := by
  interval_cases r <;> rfl

/-- The sum over the 10000 rows of a [10000, 128] block, read at column j. -/
theorem col_sum (src : FVec Ideal S10000x128 .f32) (h : S10000x128.Reduces [0] S128) (hφ : FKind.Formats .f32)
    (hacc : (0x00000000#32 : BitVec 32) = FKind.add.neutral .f32 hφ) (j : Fin 128) :
    multiReduction .add [0] S128 src 0x00000000#32 h hφ hacc (ix1 j) = ∑ p : Fin 10000, src (ix2 p j) := by
  refine (Ideal.multiReduction_add_single src 0x00000000#32 h hφ hacc (ix1 j)).trans ?_
  refine Finset.sum_congr rfl fun p _ => congrArg src ?_
  funext a
  match a with
  | ⟨0, _⟩ => rfl
  | ⟨1, _⟩ => rfl

/-- The body's one stored value at (u, r, j): in row 0 the column sum of the squared deviations, zero in rows 1 … 7. -/
theorem pay1_apply (v0 : Vec Ideal S10000x128 .f32) (v2 : Vec Ideal S128 .f32) (u : Fin 1) (r : Fin 8) (j : Fin 128) :
    k1_pay1 (F := Ideal) v0 v2 (ix3 u r j)
      = if r.val = 0 then ∑ p : Fin 10000, (v0 (ix2 p j) - v2 (ix1 j)) * (v0 (ix2 p j) - v2 (ix1 j)) else 0 := by
  unfold k1_pay1
  simp only [select_apply, broadcast_apply]
  have hc : cmpi CmpIPredicate.eq (iota Kind.tc S1x8x128 32 [1] iota_S1x8x128_d1_w32) (broadcast S1x8x128 0#32) (ix3 u r j)
      = IntOp.cmpi .eq (BitVec.ofNat 32 r.val) 0#32 := by
    show IntOp.cmpi .eq (iota Kind.tc S1x8x128 32 [1] iota_S1x8x128_d1_w32 (ix3 u r j)) 0#32 = _
    rw [iota_single_apply]
  rw [hc, select_row0 r.val r.isLt]
  by_cases hr : r.val = 0
  · rw [if_pos hr, if_pos hr]
    -- the one row of the [1, 1, 128] value, repeated over the 8 rows
    refine (broadcastTo_apply _ broadcasts_S1x1x128_S1x8x128 (ix3 u r j) (ix3 (0 : Fin 1) (0 : Fin 1) j) fun a => ?_).trans ?_
    · match a with
      | ⟨0, _⟩ => rfl
      | ⟨1, _⟩ => rfl
      | ⟨2, _⟩ => rfl
    rw [shapeCast_self]
    refine (shapeCast_apply _ shapeCasts_S128_S1x1x128 (ix3 (0 : Fin 1) (0 : Fin 1) j) (ix1 j) ?_).trans ?_
    · rw [Shape.rowMajor_val_one, Shape.rowMajor_val_three]
      show j.val = (0 * 1 + 0) * 128 + j.val
      omega
    refine (col_sum _ _ _ _ j).trans ?_
    refine Finset.sum_congr rfl fun p _ => ?_
    rw [mulf_apply, subf_apply, shapeCast_self, broadcastTo_1b_ab_apply, shapeCast_a_1a_apply, shapeCast_self]
  · rw [if_neg hr, if_neg hr]
    exact Ideal.ofBits_zero_f32

/-! ## The windows' blocks, read off the arrays -/

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The windows' block indices at each of the 5 points: the tile of h and the output block move with the point along
    the first axis; every other block index is 0. -/
theorem idx_facts : ∀ t : Fin cfg1.N, win1_0.index t (0 : Fin 2) = t.val ∧ win1_0.index t (1 : Fin 2) = 0
    ∧ win1_1.index t (0 : Fin 1) = 0
    ∧ win1_2.index t (0 : Fin 3) = t.val ∧ win1_2.index t (1 : Fin 3) = 0 ∧ win1_2.index t (2 : Fin 3) = 0
    ∧ t.val < 5 :=
  (by decide +kernel : ∀ t : Fin grid1.N, _)

/-- Window 0's block at point t is rows 10000 t … 10000 t + 9999 of h. -/
theorem blk0_apply (c : Dev nD) (t : Fin cfg1.N) (p : Fin 10000) (q : Fin 128) (k : S50000x128.Idx)
    (hk0 : (k 0).val = 10000 * t.val + p.val) (hk1 : (k 1).val = q.val) :
    (iblk1 V c 0 t : Vec Ideal S10000x128 .f32) (ix2 p q) = (V c main_v24_0 : S50000x128.Idx → EReal) k := by
  obtain ⟨e0, e1, -⟩ := idx_facts t
  unfold iblk1
  rw [View.read_apply]
  show V c main_v24_0 _ = V c main_v24_0 _
  congr 1
  funext a
  apply Fin.ext
  match a with
  | ⟨0, _⟩ => show win1_0.index t (0 : Fin 2) * 10000 + 1 * p.val = (k 0).val; rw [e0, hk0]; omega
  | ⟨1, _⟩ => show win1_0.index t (1 : Fin 2) * 128 + 1 * q.val = (k 1).val; rw [e1, hk1]; omega

/-- Window 1's block at every point is the whole centre vector. -/
theorem blk1_apply (c : Dev nD) (t : Fin cfg1.N) (q : Fin 128) :
    (iblk1 V c 1 t : Vec Ideal S128 .f32) (ix1 q) = (V c main_v27 : S128.Idx → EReal) (ix1 q) := by
  obtain ⟨-, -, e2, -⟩ := idx_facts t
  unfold iblk1
  rw [View.read_apply]
  show V c main_v27 _ = V c main_v27 _
  congr 1
  funext a
  apply Fin.ext
  match a with
  | ⟨0, _⟩ => show win1_1.index t (0 : Fin 1) * 128 + 1 * q.val = q.val; rw [e2]; omega

/-! ## What a point writes back, and the array after the last point -/

/-- The specified array at an index given by its three coordinates. -/
theorem sqParts_at (h : Cert.Spec.Mat 50000 128) (m : Cert.Spec.Vc 128) (k : S5x8x128.Idx) (t : Fin 5) (r : Fin 8) (j : Fin 128)
    (h0 : (k 0).val = t.val) (h1 : (k 1).val = r.val) (h2 : (k 2).val = j.val) :
    Cert.Spec.sqParts h m k
      = if r.val = 0 then ∑ p : Fin 10000, (h (ix2 (Cert.Spec.row10k t p) j) - m (ix1 j)) * (h (ix2 (Cert.Spec.row10k t p) j) - m (ix1 j)) else 0 := by
  have hk : k = ix3 t r j := funext fun a => Fin.ext <| match a with | ⟨0, _⟩ => h0 | ⟨1, _⟩ => h1 | ⟨2, _⟩ => h2
  subst hk
  rfl

/-- Point t writes back block t of the specified array. -/
theorem flushed_eq (c : Dev nD) (t : Fin cfg1.N) :
    (dat1 (F := Ideal) V c).flushed 2 t
      = ((cfg1.win 2).blk t).view.read (Elt Ideal) (Cert.Spec.sqParts (V c main_v24_0) (V c main_v27)) := by
  show (cfg1.win 2).cut (grid1.coords t) ((dat1 (F := Ideal) V c).after 2 t) = _
  rw [after1_2]
  unfold out1_2
  rw [View.canon_unit_zero hz3]
  simp only [View.ld_unit_zero (S := S10000x128) hz2, View.ld_unit_zero (S := S128) hz1]
  obtain ⟨-, -, -, e3, e4, e5, ht⟩ := idx_facts t
  funext y
  have hy0 : (y 0).val < 1 := (y 0).isLt
  show k1_pay1 (F := Ideal) (iblk1 V c 0 t) (iblk1 V c 1 t) y
    = Cert.Spec.sqParts (V c main_v24_0) (V c main_v27) (((cfg1.win 2).blk t).view.emb y)
  refine (congrArg (k1_pay1 (F := Ideal) (iblk1 V c 0 t) (iblk1 V c 1 t)) (eq_ix3 (n0 := 1) (n1 := 8) (n2 := 128) y)).trans ?_
  refine (pay1_apply _ _ (y 0) (y 1) (y 2)).trans ?_
  refine Eq.trans ?_ (sqParts_at _ _ _ ⟨t.val, ht⟩ (y 1) (y 2) ?_ ?_ ?_).symm
  · refine if_congr Iff.rfl (Finset.sum_congr rfl fun p _ => ?_) rfl
    have a0 := blk0_apply V c t p (y 2) (ix2 (Cert.Spec.row10k ⟨t.val, ht⟩ p) (y 2)) rfl rfl
    have a1 := blk1_apply V c t (y 2)
    rw [a0, a1]
  · show win1_2.index t (0 : Fin 3) * 1 + 1 * (y 0).val = t.val
    rw [e3]; omega
  · show win1_2.index t (1 : Fin 3) * 8 + 1 * (y 1).val = (y 1).val
    rw [e4]; omega
  · show win1_2.index t (2 : Fin 3) * 128 + 1 * (y 2).val = (y 2).val
    rw [e5]; omega

/-- An index of the [5, 8, 128] array is in point t's block iff each coordinate is in the block's range on its axis. -/
theorem mem_blk (t : Fin cfg1.N) (i : S5x8x128.Idx) :
    i ∈ ((cfg1.win 2).blk t).view.set
      ↔ ∀ a : Fin 3, win1_2.index t a * S1x8x128.size a ≤ (i a).val ∧ (i a).val < win1_2.index t a * S1x8x128.size a + S1x8x128.size a := by
  show i ∈ ((View.whole main_v28).slice (win1_2.rect t)).set ↔ _
  rw [View.set_slice_whole, Rect.mem_set_unit]
  exact Iff.rfl

/-- The 5 blocks tile the array (index i lies in block i₀), so after the last point it holds the specified partial sums. -/
theorem final1_2 (c : Dev nD) :
    (dat1 (F := Ideal) V c).arrAt 2 cfg1.N = Cert.Spec.sqParts (V c main_v24_0) (V c main_v27) :=
  (dat1 (F := Ideal) V c).arrAt_eq_of_cover 2 (Cert.Spec.sqParts (V c main_v24_0) (V c main_v27))
    (fun t _ => flushed_eq V c t) fun i => by
      have hi0 : (i 0).val < 5 := (i 0).isLt
      have hi1 : (i 1).val < 8 := (i 1).isLt
      have hi2 : (i 2).val < 128 := (i 2).isLt
      have hN : cfg1.N = 5 := N_1
      obtain ⟨t, htv⟩ : ∃ t : Fin cfg1.N, t.val = (i 0).val := ⟨⟨(i 0).val, by rw [hN]; exact hi0⟩, rfl⟩
      obtain ⟨-, -, -, e3, e4, e5, -⟩ := idx_facts t
      refine ⟨t, flush1_2 t, ?_⟩
      rw [mem_blk]
      intro a
      match a with
      | ⟨0, _⟩ => show win1_2.index t (0 : Fin 3) * 1 ≤ (i 0).val ∧ (i 0).val < win1_2.index t (0 : Fin 3) * 1 + 1; rw [e3]; omega
      | ⟨1, _⟩ => show win1_2.index t (1 : Fin 3) * 8 ≤ (i 1).val ∧ (i 1).val < win1_2.index t (1 : Fin 3) * 8 + 8; rw [e4]; omega
      | ⟨2, _⟩ => show win1_2.index t (2 : Fin 3) * 128 ≤ (i 2).val ∧ (i 2).val < win1_2.index t (2 : Fin 3) * 128 + 128; rw [e5]; omega

end Cert.KernelIdeal.R1

end
-- ==== Proof.R2.lean ====
/-
  The third stage of the layer, block by block and then as one array: each tile of 10000 rows is normalised per feature
  with the mean and the variance of the whole column, scaled, shifted, rectified, and added to the residual rows; the five
  tiles fill the 50000 rows, so the result array is Cert.Spec.out of the six arrays the stage reads.
-/
import proofs.«412922_j60601988547138_3_alg».proof.Proof.Gen.KernelIdeal.Frame
import proofs.«412922_j60601988547138_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal Cert.KernelIdeal.Gen Idealize.ShloMosaic Idealize.ShloMosaic.TcCoe Idealize.SL.Sem
open Idealize.ShloMosaic.ValueIdx
open Idealize.ShloMosaic.Pipeline (Dat)

/-- A 128-vector laid as one row and repeated down 10000 rows reads, at (p, j), the vector at j. -/
theorem row_apply {α : Type} (v : S128.Idx → α) (p : Fin 10000) (j : Fin 128) :
    broadcastTo S10000x128 (shapeCast S1x128 v shapeCasts_S128_S1x128) broadcasts_S1x128_S10000x128 (ix2 p j) = v (ix1 j) := by
  refine (broadcastTo_1b_ab_apply _ _ p j).trans ?_
  exact shapeCast_a_1a_apply v _ 0 j

/-- The same read at any index of the tile. -/
theorem row_at {α : Type} (v : S128.Idx → α) (y : S10000x128.Idx) :
    broadcastTo S10000x128 (shapeCast S1x128 v shapeCasts_S128_S1x128) broadcasts_S1x128_S10000x128 y = v (ix1 (y 1)) :=
  (congrArg _ (eq_ix2 y)).trans (row_apply v (y 0) (y 1))

/-- The body's payload at an index y = (p, j) of the tile: max(((h − mu) · rsqrt(var + ε)) · γ + β, 0) + x, the four vectors
    read at j. -/
theorem pay_at (v0 : Vec Ideal S10000x128 .f32) (v2 v7 v15 v19 : Vec Ideal S128 .f32) (v25 : Vec Ideal S10000x128 .f32)
    (y : S10000x128.Idx) :
    k2_pay1 (F := Ideal) v0 v2 v7 v15 v19 v25 y
      = max ((v0 y - v7 (ix1 (y 1))) * Ideal.rsqrt (v2 (ix1 (y 1)) + Cert.Spec.epsE) * v15 (ix1 (y 1)) + v19 (ix1 (y 1))) 0 + v25 y := by
  unfold k2_pay1
  simp only [addf_apply, maximumf_apply, mulf_apply, subf_apply, shapeCast_self, broadcast_apply, row_at]
  show max ((v0 y - v7 (ix1 (y 1))) * Ideal.rsqrt (v2 (ix1 (y 1)) + Ideal.ofBits .f32 0x3727C5AC#32) * v15 (ix1 (y 1)) + v19 (ix1 (y 1)))
      (Ideal.ofBits .f32 0x00000000#32) + v25 y = _
  rw [Ideal.ofBits_zero_f32]
  rfl

/-- The result entry from the six arrays read at indices that agree with the output's index i: the tile's rows at i, the
    vectors at i's column. -/
theorem out_of_reads (H X : Cert.Spec.Mat 50000 128) (M Vr G B : Cert.Spec.Vc 128)
    (i0 i1 i6 : S50000x128.Idx) (j2 j3 j4 j5 : S128.Idx)
    (E0 : i0 = i6) (E1 : i1 = i6) (E2 : j2 = ix1 (i6 1)) (E3 : j3 = ix1 (i6 1)) (E4 : j4 = ix1 (i6 1)) (E5 : j5 = ix1 (i6 1)) :
    max ((H i0 - M j2) * Ideal.rsqrt (Vr j3 + Cert.Spec.epsE) * G j4 + B j5) 0 + X i1 = Cert.Spec.out H X M Vr G B i6 := by
  rw [E0, E1, E2, E3, E4, E5]
  rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the five points: the two row-tiled inputs and the output sit at block (t, 0), the four
    vectors at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0 ∧ win2_3.index t (0 : Fin 1) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- WHAT POINT t WRITES BACK is block t of Cert.Spec.out of the six arrays as the stage finds them. -/
theorem flushed_eq (c : Dev nD) (t : Fin cfg2.N) :
    (dat2 (F := Ideal) V c).flushed 6 t = ((cfg2.win 6).blk t).view.read (Elt Ideal)
      (Cert.Spec.out (V c main_v24_0) (V c main_arg0) (V c main_v27) (V c main_v33) (V c main_arg8) (V c main_arg9)) := by
  show (cfg2.win 6).cut (grid2.coords t) ((dat2 (F := Ideal) V c).after 6 t) = _
  rw [after2_6]
  unfold out2_6
  rw [View.canon_unit_zero hz2]
  simp only [View.ld_unit_zero (S := S10000x128) hz2, View.ld_unit_zero (S := S128) hz1]
  obtain ⟨e00, e01, e10, e11, e2, e3, e4, e5, e60, e61⟩ := idx_facts t
  funext y
  refine (pay_at _ _ _ _ _ _ y).trans ?_
  have E0 : ((cfg2.win 0).blk t).view.emb y = ((cfg2.win 6).blk t).view.emb y := by
    funext a; apply Fin.ext
    match a with
    | ⟨0, _⟩ => show win2_0.index t (0 : Fin 2) * 10000 + 1 * (y 0).val = win2_6.index t (0 : Fin 2) * 10000 + 1 * (y 0).val; rw [e00, e60]
    | ⟨1, _⟩ => show win2_0.index t (1 : Fin 2) * 128 + 1 * (y 1).val = win2_6.index t (1 : Fin 2) * 128 + 1 * (y 1).val; rw [e01, e61]
  have E1 : ((cfg2.win 1).blk t).view.emb y = ((cfg2.win 6).blk t).view.emb y := by
    funext a; apply Fin.ext
    match a with
    | ⟨0, _⟩ => show win2_1.index t (0 : Fin 2) * 10000 + 1 * (y 0).val = win2_6.index t (0 : Fin 2) * 10000 + 1 * (y 0).val; rw [e10, e60]
    | ⟨1, _⟩ => show win2_1.index t (1 : Fin 2) * 128 + 1 * (y 1).val = win2_6.index t (1 : Fin 2) * 128 + 1 * (y 1).val; rw [e11, e61]
  have E2 : ((cfg2.win 2).blk t).view.emb (ix1 (n := 128) (y 1)) = ix1 (n := 128) ((((cfg2.win 6).blk t).view.emb y) 1) := by
    funext a; apply Fin.ext
    match a with
    | ⟨0, _⟩ => show win2_2.index t (0 : Fin 1) * 128 + 1 * (y 1).val = win2_6.index t (1 : Fin 2) * 128 + 1 * (y 1).val; rw [e2, e61]
  have E3 : ((cfg2.win 3).blk t).view.emb (ix1 (n := 128) (y 1)) = ix1 (n := 128) ((((cfg2.win 6).blk t).view.emb y) 1) := by
    funext a; apply Fin.ext
    match a with
    | ⟨0, _⟩ => show win2_3.index t (0 : Fin 1) * 128 + 1 * (y 1).val = win2_6.index t (1 : Fin 2) * 128 + 1 * (y 1).val; rw [e3, e61]
  have E4 : ((cfg2.win 4).blk t).view.emb (ix1 (n := 128) (y 1)) = ix1 (n := 128) ((((cfg2.win 6).blk t).view.emb y) 1) := by
    funext a; apply Fin.ext
    match a with
    | ⟨0, _⟩ => show win2_4.index t (0 : Fin 1) * 128 + 1 * (y 1).val = win2_6.index t (1 : Fin 2) * 128 + 1 * (y 1).val; rw [e4, e61]
  have E5 : ((cfg2.win 5).blk t).view.emb (ix1 (n := 128) (y 1)) = ix1 (n := 128) ((((cfg2.win 6).blk t).view.emb y) 1) := by
    funext a; apply Fin.ext
    match a with
    | ⟨0, _⟩ => show win2_5.index t (0 : Fin 1) * 128 + 1 * (y 1).val = win2_6.index t (1 : Fin 2) * 128 + 1 * (y 1).val; rw [e5, e61]
  exact out_of_reads (V c main_v24_0) (V c main_arg0) (V c main_v27) (V c main_v33) (V c main_arg8) (V c main_arg9)
    (((cfg2.win 0).blk t).view.emb y) (((cfg2.win 1).blk t).view.emb y) (((cfg2.win 6).blk t).view.emb y)
    (((cfg2.win 2).blk t).view.emb (ix1 (n := 128) (y 1))) (((cfg2.win 3).blk t).view.emb (ix1 (n := 128) (y 1)))
    (((cfg2.win 4).blk t).view.emb (ix1 (n := 128) (y 1))) (((cfg2.win 5).blk t).view.emb (ix1 (n := 128) (y 1)))
    E0 E1 E2 E3 E4 E5

/-- An index of the array is in point t's block iff each coordinate is in the block's range on its axis. -/
theorem mem_blk (t : Fin cfg2.N) (i : S50000x128.Idx) :
    i ∈ ((cfg2.win 6).blk t).view.set ↔ ∀ a : Fin 2, win2_6.index t a * S10000x128.size a ≤ (i a).val
      ∧ (i a).val < win2_6.index t a * S10000x128.size a + S10000x128.size a := by
  show i ∈ ((View.whole main_v34).slice (win2_6.rect t)).set ↔ _
  rw [View.set_slice_whole, Rect.mem_set_unit]
  exact Iff.rfl

/-- Row n lies in tile n / 10000: the five blocks fill the array. -/
theorem covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 5 := N_2
  have ht : (i 0).val / 10000 < cfg2.N := by rw [hN]; omega
  obtain ⟨-, -, -, -, -, -, -, -, e60, e61⟩ := idx_facts ⟨(i 0).val / 10000, ht⟩
  refine ⟨⟨(i 0).val / 10000, ht⟩, flush2_6 _, ?_⟩
  rw [mem_blk]
  intro a
  match a with
  | ⟨0, _⟩ =>
    show win2_6.index ⟨(i 0).val / 10000, ht⟩ (0 : Fin 2) * 10000 ≤ (i 0).val
      ∧ (i 0).val < win2_6.index ⟨(i 0).val / 10000, ht⟩ (0 : Fin 2) * 10000 + 10000
    rw [e60]
    show (i 0).val / 10000 * 10000 ≤ (i 0).val ∧ (i 0).val < (i 0).val / 10000 * 10000 + 10000
    omega
  | ⟨1, _⟩ =>
    show win2_6.index ⟨(i 0).val / 10000, ht⟩ (1 : Fin 2) * 128 ≤ (i 1).val
      ∧ (i 1).val < win2_6.index ⟨(i 0).val / 10000, ht⟩ (1 : Fin 2) * 128 + 128
    rw [e61]
    omega

/-- THE ARRAY after the stage: Cert.Spec.out of the six arrays the stage reads, as it finds them. -/
theorem final2_6 (c : Dev nD) : (dat2 (F := Ideal) V c).arrAt 6 cfg2.N
    = Cert.Spec.out (V c main_v24_0) (V c main_arg0) (V c main_v27) (V c main_v33) (V c main_arg8) (V c main_arg9) :=
  (dat2 (F := Ideal) V c).arrAt_eq_of_cover 6 _ (fun t _ => flushed_eq V c t) covered

end Cert.KernelIdeal.R2

end
-- ==== Proof.KReduce.lean ====
/-
  The mean and the variance as the program forms them from the per-tile partial sums, read at the ideal values, are
  the specification's mean and variance.

  The program adds, per feature, every entry of a T × 8 × 128 array of partial sums (one sum over the first two axes,
  from the initial value 0) and divides by the number of nodes. The array holds in row 0 of tile t the column's sum
  over that tile's B rows and zeros in rows 1 … 7: the sum over the 8 rows keeps row 0, and the sum over the tiles of
  the tiles' sums is the sum over all T · B = 50000 rows, since (t, p) ↦ B · t + p is a bijection of T × B onto T · B.
  Extended reals under addition are a commutative monoid, so no finiteness is asked anywhere.
  For the variance the quotient is not negative: each squared deviation is the square of an extended real, which is
  not negative (⊥ · ⊥ = ⊤), a finite sum of such terms is not negative, and the divisor is the positive real 50000;
  so the final maximum with 0 returns the quotient.
-/
import proofs.«412922_j60601988547138_3_alg».proof.Proof.KTerm
import proofs.«412922_j60601988547138_3_alg».proof.Proof.Gen.KernelIdeal
import proofs.«412922_j60601988547138_3_alg».proof.Proof.Spec
import Idealize.ShloMosaic.PureOps.Ideal.Laws
import Idealize.ShloMosaic.Lib.ValueIdx
import Idealize.ShloMosaic.Lib.Pipeline.Value
import Mathlib.Data.EReal.Inv
import Mathlib.Data.Fintype.BigOperators
import Mathlib.Logic.Equiv.Fin.Basic
import Mathlib.Algebra.Order.BigOperators.Group.Finset

noncomputable section

namespace Cert.KernelIdeal.KReduce

open Idealize.ShloMosaic Idealize.ShloMosaic.ValueIdx Cert.KernelIdeal
open scoped BigOperators

/-! ## Sums over a rank-3 index set, and the sum over its first two axes -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the first two axes of the index (t, r, k) leaves (k). -/
theorem drop_d01 {a b c : Nat} (h' : (⟨3, ![a, b, c]⟩ : Shape).ReducesTo [0, 1] ⟨1, ![c]⟩) (t : Fin a) (r : Fin b)
    (k : Fin c) : h'.drop (ix3 t r k) = ix1 k := by
  funext d
  match d with
  | ⟨0, _⟩ => exact Fin.ext rfl

/-- The host's sum over the first two axes of an a × b × c array, read at (k): the initial value plus the double sum
    over (t, r) of the entries (t, r, k). -/
theorem hostReduceAdd_d01 {a b c : Nat} (h' : (⟨3, ![a, b, c]⟩ : Shape).ReducesTo [0, 1] ⟨1, ![c]⟩)
    (x : (⟨3, ![a, b, c]⟩ : Shape).Idx → EReal) (init : EReal) (k : Fin c) :
    Ideal.hostReduceAdd h' x init (ix1 k) = init + ∑ t : Fin a, ∑ r : Fin b, x (ix3 t r k) := by
  unfold Ideal.hostReduceAdd
  refine congrArg (init + ·) ?_
  rw [Finset.sum_filter, sum_idx3]
  refine Finset.sum_congr rfl fun t _ => Finset.sum_congr rfl fun r _ => ?_
  rw [Fintype.sum_eq_single k]
  · exact if_pos (drop_d01 h' t r k)
  · intro k' hk'
    exact if_neg fun e => hk' (congrFun (show ix1 k' = ix1 k from (drop_d01 h' t r k').symm.trans e) 0)

/-! ## Row 0 of eight, and the tiles of the rows -/

/-- A sum over n + 1 rows of a term held in row 0, zero elsewhere, is that term. -/
theorem sum_row0 {M : Type*} [AddCommMonoid M] {n : Nat} (S : M) :
    ∑ r : Fin (n + 1), (if r.val = 0 then S else 0) = S := by
  rw [Fintype.sum_eq_single (0 : Fin (n + 1))]
  · exact if_pos rfl
  · intro r hr
    exact if_neg fun e => hr (Fin.ext e)

/-- The sum over T tiles of the sums over a tile's B rows is the sum over all T · B rows, row p of tile t being row
    B · t + p. -/
theorem sum_tiles {M : Type*} [AddCommMonoid M] {T B N : Nat} (hN : T * B = N) (row : Fin T → Fin B → Fin N)
    (hrow : ∀ t p, (row t p).val = B * t.val + p.val) (f : Fin N → M) :
    ∑ t : Fin T, ∑ p : Fin B, f (row t p) = ∑ n : Fin N, f n := by
  subst hN
  rw [← Equiv.sum_comp finProdFinEquiv f, Fintype.sum_prod_type]
  refine Finset.sum_congr rfl fun t _ => Finset.sum_congr rfl fun p _ => congrArg f (Fin.ext ?_)
  exact (hrow t p).trans (Nat.add_comm _ _)

/-! ## The number of nodes, and signs -/

/-- The divisor's float pattern denotes the real 50000. -/
theorem nE_eq : Cert.Spec.nE = ((50000 : ℝ) : EReal) := by
  unfold Cert.Spec.nE
  simp [Ideal.ofBits, Ideal.ieee, -EReal.coe_mul]; norm_num

/-- The square of an extended real is not negative (both factors have the same sign; ⊥ · ⊥ = ⊤). -/
theorem mul_self_nonneg (x : EReal) : 0 ≤ x * x :=
  EReal.mul_nonneg_iff.2 ((le_total 0 x).imp (fun h => ⟨h, h⟩) (fun h => ⟨h, h⟩))

/-- A quantity that is not negative, divided by the number of nodes, is not negative. -/
theorem div_nE_nonneg {x : EReal} (hx : 0 ≤ x) : 0 ≤ Ideal.div x Cert.Spec.nE := by
  have hpos : (0 : EReal) ≤ Cert.Spec.nE := by rw [nE_eq]; exact EReal.coe_nonneg.2 (by norm_num)
  have hne : Cert.Spec.nE ≠ 0 := by rw [nE_eq]; exact EReal.coe_ne_zero.2 (by norm_num)
  unfold Ideal.div
  rw [if_neg hne]
  exact EReal.mul_nonneg hx (EReal.inv_nonneg_of_nonneg hpos)

/-! ## The program's mean and variance -/

/-- The program's mean at feature k: the host's sum of the partial sums over tiles and rows, over the number of nodes. -/
theorem meanOf_apply (parts : Vec Ideal S10x8x128 .f32) (k : Fin 128) :
    KTerm.meanOf (F := Ideal) parts (ix1 k)
      = Ideal.div (Ideal.hostReduceAdd Facts₀.reducesTo_S10x8x128_S128_d0_1 parts (Ideal.ofBits .f32 0x00000000#32) (ix1 k))
          Cert.Spec.nE := rfl

/-- The program's variance at feature k: the same quotient over the 5 × 8 × 128 partial sums, then the maximum with 0. -/
theorem varOf_apply (parts : Vec Ideal S5x8x128 .f32) (k : Fin 128) :
    KTerm.varOf (F := Ideal) parts (ix1 k)
      = max (Ideal.div (Ideal.hostReduceAdd Facts₀.reducesTo_S5x8x128_S128_d0_1 parts (Ideal.ofBits .f32 0x00000000#32) (ix1 k))
          Cert.Spec.nE) (Ideal.ofBits .f32 0x00000000#32) := rfl

/-- On the partial sums of h the program's mean is the mean of h. -/
theorem meanOf_sumParts (h : Cert.Spec.Mat 50000 128) : KTerm.meanOf (F := Ideal) (Cert.Spec.sumParts h) = Cert.Spec.mu h := by
  funext j
  obtain ⟨k, rfl⟩ : ∃ k : Fin 128, j = ix1 k := ⟨j 0, eq_ix1 j⟩
  rw [meanOf_apply, hostReduceAdd_d01, Ideal.ofBits_zero_f32, zero_add]
  show Ideal.div (∑ t : Fin 10, ∑ r : Fin 8, (if r.val = 0 then ∑ p : Fin 5000, h (ix2 (Cert.Spec.row5k t p) k) else 0))
      Cert.Spec.nE = Ideal.div (∑ n : Fin 50000, h (ix2 n k)) Cert.Spec.nE
  refine congrArg (Ideal.div · Cert.Spec.nE) ?_
  refine (Finset.sum_congr rfl fun t _ => sum_row0 (n := 7) _).trans ?_
  exact sum_tiles (T := 10) (B := 5000) (N := 50000) rfl Cert.Spec.row5k (fun _ _ => rfl) fun n => h (ix2 n k)

/-- On the partial sums of the squared deviations of h from c the program's variance is the mean squared deviation. -/
theorem varOf_sqParts (h : Cert.Spec.Mat 50000 128) (c : Cert.Spec.Vc 128) :
    KTerm.varOf (F := Ideal) (Cert.Spec.sqParts h c) = Cert.Spec.var h c := by
  funext j
  obtain ⟨k, rfl⟩ : ∃ k : Fin 128, j = ix1 k := ⟨j 0, eq_ix1 j⟩
  rw [varOf_apply, hostReduceAdd_d01, Ideal.ofBits_zero_f32, zero_add]
  have hs : (∑ t : Fin 5, ∑ r : Fin 8, Cert.Spec.sqParts h c (ix3 t r k))
      = ∑ n : Fin 50000, (h (ix2 n k) - c (ix1 k)) * (h (ix2 n k) - c (ix1 k)) := by
    show (∑ t : Fin 5, ∑ r : Fin 8, (if r.val = 0 then
        ∑ p : Fin 10000, (h (ix2 (Cert.Spec.row10k t p) k) - c (ix1 k)) * (h (ix2 (Cert.Spec.row10k t p) k) - c (ix1 k)) else 0)) = _
    refine (Finset.sum_congr rfl fun t _ => sum_row0 (n := 7) _).trans ?_
    exact sum_tiles (T := 5) (B := 10000) (N := 50000) rfl Cert.Spec.row10k (fun _ _ => rfl)
      fun n => (h (ix2 n k) - c (ix1 k)) * (h (ix2 n k) - c (ix1 k))
  rw [hs]
  show max (Ideal.div (∑ n : Fin 50000, (h (ix2 n k) - c (ix1 k)) * (h (ix2 n k) - c (ix1 k))) Cert.Spec.nE) 0
      = Ideal.div (∑ n : Fin 50000, (h (ix2 n k) - c (ix1 k)) * (h (ix2 n k) - c (ix1 k))) Cert.Spec.nE
  exact max_eq_left (div_nE_nonneg (Finset.sum_nonneg fun n _ => mul_self_nonneg _))

end Cert.KernelIdeal.KReduce

end
-- ==== Proof.KValue.lean ====
/-
  What the kernel's program leaves in its result buffer, as one function of its argument arrays.

  The program runs three tiled stages between stretches of whole-array operations. Reading the buffers' contents
  backwards from the last boundary: the third stage's output is the normalised layer of the first stage's output h,
  the mean and the variance; the variance is formed from the second stage's partial sums of squares, the mean from the
  first stage's partial sums, and h from x, the summed edge messages and the weights, all of which the stages before
  leave untouched.
-/
import proofs.«412922_j60601988547138_3_alg».proof.Proof.Gen.KernelIdeal.Frame
import proofs.«412922_j60601988547138_3_alg».proof.Proof.Spec
import proofs.«412922_j60601988547138_3_alg».proof.Proof.KTerm
import proofs.«412922_j60601988547138_3_alg».proof.Proof.R0
import proofs.«412922_j60601988547138_3_alg».proof.Proof.R1
import proofs.«412922_j60601988547138_3_alg».proof.Proof.R2
import proofs.«412922_j60601988547138_3_alg».proof.Proof.KReduce
import Idealize.ShloMosaic.Lib.StableHlo.Run
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)

/-- A stretch of whole-array operations leaves a buffer none of them writes as it was. -/
syntax "keeps " ident : tactic
macro_rules
  | `(tactic| keeps $ops) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

section Stretches
variable {F : FTy → Type} [FloatOps F] (X : Valuation τ sig (Elt F))
attribute [local irreducible] Host.gather Host.scatterAdd Host.reduceAdd

/-! ## The stretches of whole-array operations, one result each -/

/-- The variance after the last stretch: the program's quotient and maximum of the partial sums of squares. -/
theorem var_eq : StableHlo.after (hostOps2 (F := F)) X (Proc.devRef .tc main_v33) = KTerm.varOf (F := F) (X (Proc.devRef .tc main_v28)) := by
  after_results
  try rfl

/-- The mean after the middle stretch: the program's quotient of the partial sums. -/
theorem mean_eq : StableHlo.after (hostOps1 (F := F)) X (Proc.devRef .tc main_v27) = KTerm.meanOf (F := F) (X (Proc.devRef .tc main_v24_1)) := by
  after_results
  try rfl

/-- The summed edge messages after the first three stretches, from the launch contents: stretch by stretch. -/
theorem s2_v21 : StableHlo.after (hostOps0_2 (F := F)) X (Proc.devRef .tc main_v21)
    = Host.scatterAdd scatter_S50000x128_S600000x1_S600000x128_1_0_0_1
        (broadcastInDim S50000x128 ![] Facts₀.bcast_S_S50000x128 (constant S_ .f32 0x00000000#32))
        (broadcastInDim S600000x1 ![0] Facts₀.bcast_S600000_S600000x1_0 (X (Proc.devRef .tc main_v3))) (X (Proc.devRef .tc main_v18)) := by
  after_results
  try rfl

theorem s2_v23 : StableHlo.after (hostOps0_2 (F := F)) X (Proc.devRef .tc main_v23) = KTerm.ope (F := F) (X (Proc.devRef .tc main_arg10)) := by
  after_results
  try rfl

theorem s1_v18 : StableHlo.after (hostOps0_1 (F := F)) X (Proc.devRef .tc main_v18)
    = maximumf (X (Proc.devRef .tc main_v17)) (broadcastInDim S600000x128 ![] Facts₀.bcast_S_S600000x128 (constant S_ .f32 0x00000000#32)) := by
  after_results
  try rfl

theorem s0_v17 : StableHlo.after (hostOps0 (F := F)) X (Proc.devRef .tc main_v17)
    = addf (Host.gather gather_S50000x128_S600000x1_S600000x128_1_0_n_n_0_1_1128 (X (Proc.devRef .tc main_arg0)) (KTerm.srcIdx (X (Proc.devRef .tc main_arg11))))
        (addf (Host.dotGeneral dot_S600000x64_S64x128_S600000x128_1_0_0_1_n_n none (truncf .bf16 (X (Proc.devRef .tc main_arg1)) Facts₀.bitsLt_bf16_f32) (truncf .bf16 (X (Proc.devRef .tc main_arg2)) Facts₀.bitsLt_bf16_f32))
          (broadcastInDim S600000x128 ![0, 1] Facts₀.bcast_S1x128_S600000x128_0_1 (broadcastInDim S1x128 ![1] Facts₀.bcast_S128_S1x128_1 (X (Proc.devRef .tc main_arg3))))) := by
  after_results_simp
  try rfl

theorem s0_v3 : StableHlo.after (hostOps0 (F := F)) X (Proc.devRef .tc main_v3)
    = shapeCast S600000 (extractStridedSlice S1x600000 ![1, 0] (X (Proc.devRef .tc main_arg11)) Facts₀.slices_S2x600000_S1x600000_1_0) Facts₀.shapeCasts_S1x600000_S600000 := by
  after_results_simp
  try rfl

/-- The summed edge messages after the first three stretches, from the launch contents. -/
theorem aggr_eq : StableHlo.after (hostOps0_2 (F := F)) (StableHlo.after (hostOps0_1 (F := F)) (StableHlo.after (hostOps0 (F := F)) X)) (Proc.devRef .tc main_v21)
    = KTerm.aggr (F := F) (X (Proc.devRef .tc main_arg0)) (X (Proc.devRef .tc main_arg1)) (X (Proc.devRef .tc main_arg2)) (X (Proc.devRef .tc main_arg3)) (X (Proc.devRef .tc main_arg11)) := by
  rw [s2_v21, s1_v18, s0_v17]
  rw [show StableHlo.after (hostOps0_1 (F := F)) (StableHlo.after (hostOps0 (F := F)) X) (Proc.devRef .tc main_v3) = StableHlo.after (hostOps0 (F := F)) X (Proc.devRef .tc main_v3) from by keeps hostOps0_1]
  rw [s0_v3]
  rfl

/-- The vector of 1 + eps after the first three stretches. -/
theorem ope_eq : StableHlo.after (hostOps0_2 (F := F)) (StableHlo.after (hostOps0_1 (F := F)) (StableHlo.after (hostOps0 (F := F)) X)) (Proc.devRef .tc main_v23)
    = KTerm.ope (F := F) (X (Proc.devRef .tc main_arg10)) := by
  rw [s2_v23]
  rw [show StableHlo.after (hostOps0_1 (F := F)) (StableHlo.after (hostOps0 (F := F)) X) (Proc.devRef .tc main_arg10) = StableHlo.after (hostOps0 (F := F)) X (Proc.devRef .tc main_arg10) from by keeps hostOps0_1]
  rw [show StableHlo.after (hostOps0 (F := F)) X (Proc.devRef .tc main_arg10) = X (Proc.devRef .tc main_arg10) from by keeps hostOps0]

end Stretches

/-! ## Buffers the stretches and stages leave untouched -/

variable (m : (ℓ : Loc nD τ sig) → Buf (Elt Ideal) ℓ) (ρ : Dev nD → PrngReg) (c : Dev nD)

/-- main_arg0 is as launched when the first stage is entered. -/
theorem W3_main_arg0 : W3 m ρ c (Proc.devRef .tc main_arg0) = m ((c : Thread nD τ).loc main_arg0) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl
/-- main_arg4 is as launched when the first stage is entered. -/
theorem W3_main_arg4 : W3 m ρ c (Proc.devRef .tc main_arg4) = m ((c : Thread nD τ).loc main_arg4) :=
  calc W3 m ρ c (Proc.devRef .tc main_arg4)
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl
/-- main_arg5 is as launched when the first stage is entered. -/
theorem W3_main_arg5 : W3 m ρ c (Proc.devRef .tc main_arg5) = m ((c : Thread nD τ).loc main_arg5) :=
  calc W3 m ρ c (Proc.devRef .tc main_arg5)
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl
/-- main_arg6 is as launched when the first stage is entered. -/
theorem W3_main_arg6 : W3 m ρ c (Proc.devRef .tc main_arg6) = m ((c : Thread nD τ).loc main_arg6) :=
  calc W3 m ρ c (Proc.devRef .tc main_arg6)
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl
/-- main_arg7 is as launched when the first stage is entered. -/
theorem W3_main_arg7 : W3 m ρ c (Proc.devRef .tc main_arg7) = m ((c : Thread nD τ).loc main_arg7) :=
  calc W3 m ρ c (Proc.devRef .tc main_arg7)
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl
/-- main_arg8 is as launched when the first stage is entered. -/
theorem W3_main_arg8 : W3 m ρ c (Proc.devRef .tc main_arg8) = m ((c : Thread nD τ).loc main_arg8) :=
  calc W3 m ρ c (Proc.devRef .tc main_arg8)
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c : Thread nD τ).loc main_arg8) := rfl
/-- main_arg9 is as launched when the first stage is entered. -/
theorem W3_main_arg9 : W3 m ρ c (Proc.devRef .tc main_arg9) = m ((c : Thread nD τ).loc main_arg9) :=
  calc W3 m ρ c (Proc.devRef .tc main_arg9)
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c : Thread nD τ).loc main_arg9) := rfl

/-- The summed edge messages when the first stage is entered. -/
theorem W3_main_v21 : W3 m ρ c (Proc.devRef .tc main_v21)
    = KTerm.aggr (F := Ideal) (m ((c : Thread nD τ).loc main_arg0)) (m ((c : Thread nD τ).loc main_arg1)) (m ((c : Thread nD τ).loc main_arg2)) (m ((c : Thread nD τ).loc main_arg3)) (m ((c : Thread nD τ).loc main_arg11)) :=
  aggr_eq (W0 m ρ c)

/-- The vector of 1 + eps when the first stage is entered. -/
theorem W3_main_v23 : W3 m ρ c (Proc.devRef .tc main_v23) = KTerm.ope (F := Ideal) (m ((c : Thread nD τ).loc main_arg10)) :=
  ope_eq (W0 m ρ c)

/-- The layer's pre-normalisation output h as a function of the launch contents. -/
abbrev hK : Cert.Spec.Mat 50000 128 :=
  Cert.Spec.hmlp (m ((c : Thread nD τ).loc main_arg0))
    (KTerm.aggr (F := Ideal) (m ((c : Thread nD τ).loc main_arg0)) (m ((c : Thread nD τ).loc main_arg1)) (m ((c : Thread nD τ).loc main_arg2)) (m ((c : Thread nD τ).loc main_arg3)) (m ((c : Thread nD τ).loc main_arg11)))
    (KTerm.ope (F := Ideal) (m ((c : Thread nD τ).loc main_arg10)))
    (m ((c : Thread nD τ).loc main_arg4)) (m ((c : Thread nD τ).loc main_arg5)) (m ((c : Thread nD τ).loc main_arg6)) (m ((c : Thread nD τ).loc main_arg7))

/-- After the first stage its first output holds h. -/
theorem W4_main_v24_0 : W4 m ρ c (Proc.devRef .tc main_v24_0) = hK m c := by
  refine (W4_arr m ρ c 7).trans ((R0.final0_7 (V3 m ρ) c).trans ?_)
  show Cert.Spec.hmlp (W3 m ρ c (Proc.devRef .tc main_arg0)) (W3 m ρ c (Proc.devRef .tc main_v21)) (W3 m ρ c (Proc.devRef .tc main_v23))
    (W3 m ρ c (Proc.devRef .tc main_arg4)) (W3 m ρ c (Proc.devRef .tc main_arg5)) (W3 m ρ c (Proc.devRef .tc main_arg6)) (W3 m ρ c (Proc.devRef .tc main_arg7)) = _
  rw [W3_main_arg0, W3_main_v21, W3_main_v23, W3_main_arg4, W3_main_arg5, W3_main_arg6, W3_main_arg7]

/-- After the first stage its second output holds the per-tile column sums of h. -/
theorem W4_main_v24_1 : W4 m ρ c (Proc.devRef .tc main_v24_1) = Cert.Spec.sumParts (hK m c) := by
  refine (W4_arr m ρ c 8).trans ((R0.final0_8 (V3 m ρ) c).trans ?_)
  show Cert.Spec.sumParts (Cert.Spec.hmlp (W3 m ρ c (Proc.devRef .tc main_arg0)) (W3 m ρ c (Proc.devRef .tc main_v21)) (W3 m ρ c (Proc.devRef .tc main_v23))
    (W3 m ρ c (Proc.devRef .tc main_arg4)) (W3 m ρ c (Proc.devRef .tc main_arg5)) (W3 m ρ c (Proc.devRef .tc main_arg6)) (W3 m ρ c (Proc.devRef .tc main_arg7))) = _
  rw [W3_main_arg0, W3_main_v21, W3_main_v23, W3_main_arg4, W3_main_arg5, W3_main_arg6, W3_main_arg7]

/-- x is as launched after the first stage (which only reads it). -/
theorem W4_main_arg0 : W4 m ρ c (Proc.devRef .tc main_arg0) = m ((c : Thread nD τ).loc main_arg0) :=
  (W4_arr m ρ c 0).trans (((dat0 (V3 m ρ) c).arrAt_in 0 rfl _).trans ((A_eq0 (V3 m ρ) c 0).trans (W3_main_arg0 m ρ c)))
/-- γ is as launched after the first stage. -/
theorem W4_main_arg8 : W4 m ρ c (Proc.devRef .tc main_arg8) = m ((c : Thread nD τ).loc main_arg8) :=
  (W4_of_ne m ρ c main_arg8 (by decide)).trans (W3_main_arg8 m ρ c)
/-- β is as launched after the first stage. -/
theorem W4_main_arg9 : W4 m ρ c (Proc.devRef .tc main_arg9) = m ((c : Thread nD τ).loc main_arg9) :=
  (W4_of_ne m ρ c main_arg9 (by decide)).trans (W3_main_arg9 m ρ c)

/-! ## Between the first and the second stage -/

theorem W5_main_v27 : W5 m ρ c (Proc.devRef .tc main_v27) = Cert.Spec.mu (hK m c) :=
  (mean_eq (W4 m ρ c)).trans ((congrArg (KTerm.meanOf (F := Ideal)) (W4_main_v24_1 m ρ c)).trans (KReduce.meanOf_sumParts (hK m c)))
theorem W5_main_v24_0 : W5 m ρ c (Proc.devRef .tc main_v24_0) = hK m c :=
  (by keeps hostOps1 : W5 m ρ c (Proc.devRef .tc main_v24_0) = W4 m ρ c (Proc.devRef .tc main_v24_0)).trans (W4_main_v24_0 m ρ c)
theorem W5_main_arg0 : W5 m ρ c (Proc.devRef .tc main_arg0) = m ((c : Thread nD τ).loc main_arg0) :=
  (by keeps hostOps1 : W5 m ρ c (Proc.devRef .tc main_arg0) = W4 m ρ c (Proc.devRef .tc main_arg0)).trans (W4_main_arg0 m ρ c)
theorem W5_main_arg8 : W5 m ρ c (Proc.devRef .tc main_arg8) = m ((c : Thread nD τ).loc main_arg8) :=
  (by keeps hostOps1 : W5 m ρ c (Proc.devRef .tc main_arg8) = W4 m ρ c (Proc.devRef .tc main_arg8)).trans (W4_main_arg8 m ρ c)
theorem W5_main_arg9 : W5 m ρ c (Proc.devRef .tc main_arg9) = m ((c : Thread nD τ).loc main_arg9) :=
  (by keeps hostOps1 : W5 m ρ c (Proc.devRef .tc main_arg9) = W4 m ρ c (Proc.devRef .tc main_arg9)).trans (W4_main_arg9 m ρ c)

/-! ## The second stage -/

theorem W6_main_v28 : W6 m ρ c (Proc.devRef .tc main_v28) = Cert.Spec.sqParts (hK m c) (Cert.Spec.mu (hK m c)) := by
  refine (W6_arr m ρ c 2).trans ((R1.final1_2 (V5 m ρ) c).trans ?_)
  show Cert.Spec.sqParts (W5 m ρ c (Proc.devRef .tc main_v24_0)) (W5 m ρ c (Proc.devRef .tc main_v27)) = _
  rw [W5_main_v24_0, W5_main_v27]
theorem W6_main_v24_0 : W6 m ρ c (Proc.devRef .tc main_v24_0) = hK m c :=
  (W6_arr m ρ c 0).trans (((dat1 (V5 m ρ) c).arrAt_in 0 rfl _).trans ((A_eq1 (V5 m ρ) c 0).trans (W5_main_v24_0 m ρ c)))
theorem W6_main_v27 : W6 m ρ c (Proc.devRef .tc main_v27) = Cert.Spec.mu (hK m c) :=
  (W6_arr m ρ c 1).trans (((dat1 (V5 m ρ) c).arrAt_in 1 rfl _).trans ((A_eq1 (V5 m ρ) c 1).trans (W5_main_v27 m ρ c)))
theorem W6_main_arg0 : W6 m ρ c (Proc.devRef .tc main_arg0) = m ((c : Thread nD τ).loc main_arg0) :=
  (W6_of_ne m ρ c main_arg0 (by decide)).trans (W5_main_arg0 m ρ c)
theorem W6_main_arg8 : W6 m ρ c (Proc.devRef .tc main_arg8) = m ((c : Thread nD τ).loc main_arg8) :=
  (W6_of_ne m ρ c main_arg8 (by decide)).trans (W5_main_arg8 m ρ c)
theorem W6_main_arg9 : W6 m ρ c (Proc.devRef .tc main_arg9) = m ((c : Thread nD τ).loc main_arg9) :=
  (W6_of_ne m ρ c main_arg9 (by decide)).trans (W5_main_arg9 m ρ c)

/-! ## Between the second and the third stage -/

theorem W7_main_v33 : W7 m ρ c (Proc.devRef .tc main_v33) = Cert.Spec.var (hK m c) (Cert.Spec.mu (hK m c)) :=
  (var_eq (W6 m ρ c)).trans ((congrArg (KTerm.varOf (F := Ideal)) (W6_main_v28 m ρ c)).trans (KReduce.varOf_sqParts (hK m c) _))
theorem W7_main_v24_0 : W7 m ρ c (Proc.devRef .tc main_v24_0) = hK m c :=
  (by keeps hostOps2 : W7 m ρ c (Proc.devRef .tc main_v24_0) = W6 m ρ c (Proc.devRef .tc main_v24_0)).trans (W6_main_v24_0 m ρ c)
theorem W7_main_v27 : W7 m ρ c (Proc.devRef .tc main_v27) = Cert.Spec.mu (hK m c) :=
  (by keeps hostOps2 : W7 m ρ c (Proc.devRef .tc main_v27) = W6 m ρ c (Proc.devRef .tc main_v27)).trans (W6_main_v27 m ρ c)
theorem W7_main_arg0 : W7 m ρ c (Proc.devRef .tc main_arg0) = m ((c : Thread nD τ).loc main_arg0) :=
  (by keeps hostOps2 : W7 m ρ c (Proc.devRef .tc main_arg0) = W6 m ρ c (Proc.devRef .tc main_arg0)).trans (W6_main_arg0 m ρ c)
theorem W7_main_arg8 : W7 m ρ c (Proc.devRef .tc main_arg8) = m ((c : Thread nD τ).loc main_arg8) :=
  (by keeps hostOps2 : W7 m ρ c (Proc.devRef .tc main_arg8) = W6 m ρ c (Proc.devRef .tc main_arg8)).trans (W6_main_arg8 m ρ c)
theorem W7_main_arg9 : W7 m ρ c (Proc.devRef .tc main_arg9) = m ((c : Thread nD τ).loc main_arg9) :=
  (by keeps hostOps2 : W7 m ρ c (Proc.devRef .tc main_arg9) = W6 m ρ c (Proc.devRef .tc main_arg9)).trans (W6_main_arg9 m ρ c)

/-! ## The third stage: the result -/

/-- THE RESULT BUFFER after the run is the whole layer of the launch contents. -/
theorem result_eq : W8 m ρ c (Proc.devRef .tc main_v34)
    = Cert.Spec.layer (m ((c : Thread nD τ).loc main_arg0))
        (KTerm.aggr (F := Ideal) (m ((c : Thread nD τ).loc main_arg0)) (m ((c : Thread nD τ).loc main_arg1)) (m ((c : Thread nD τ).loc main_arg2)) (m ((c : Thread nD τ).loc main_arg3)) (m ((c : Thread nD τ).loc main_arg11)))
        (KTerm.ope (F := Ideal) (m ((c : Thread nD τ).loc main_arg10)))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  refine (W8_arr m ρ c 6).trans ((R2.final2_6 (V7 m ρ) c).trans ?_)
  show Cert.Spec.out (W7 m ρ c (Proc.devRef .tc main_v24_0)) (W7 m ρ c (Proc.devRef .tc main_arg0)) (W7 m ρ c (Proc.devRef .tc main_v27))
    (W7 m ρ c (Proc.devRef .tc main_v33)) (W7 m ρ c (Proc.devRef .tc main_arg8)) (W7 m ρ c (Proc.devRef .tc main_arg9)) = _
  rw [W7_main_v24_0, W7_main_arg0, W7_main_v27, W7_main_v33, W7_main_arg8, W7_main_arg9]
  rfl

end Cert.KernelIdeal.KValue

end
-- ==== Proof.RefTerm.lean ====
/-
  The reference's computation as one composed term of its argument arrays, operation by operation in the
  order its program applies them: the edge messages (gathered source rows plus the projected edge features plus the
  bias, rectified), their sum per destination node, the two affine maps with a rectifier between, the per-feature
  mean and variance over the nodes, and the normalised, rectified result plus the residual.
-/
import proofs.«412922_j60601988547138_3_alg».proof.ReferenceIdeal

noncomputable section

namespace Cert.ReferenceIdeal.RefTerm

open Idealize.ShloMosaic Cert.ReferenceIdeal Cert.ReferenceIdeal.Facts₀

variable {F : FTy → Type} [FloatOps F] [Facts]

/-- Row 0 of the edge list (the source nodes) as a column of index words, a negative word shifted up by the number of nodes. -/
def srcIdx (ei : IVec S2x600000 32) : IVec S600000x1 32 :=
  broadcastInDim S600000x1 ![0] bcast_S600000_S600000x1_0
    (select (cmpi .slt (shapeCast S600000 (extractStridedSlice S1x600000 ![0, 0] ei slices_S2x600000_S1x600000_0_0) shapeCasts_S1x600000_S600000)
        (broadcastInDim S600000 ![] bcast_S_S600000 (constantI S_ 32 0#32)))
      (addi (shapeCast S600000 (extractStridedSlice S1x600000 ![0, 0] ei slices_S2x600000_S1x600000_0_0) shapeCasts_S1x600000_S600000)
        (broadcastInDim S600000 ![] bcast_S_S600000 (constantI S_ 32 50000#32)))
      (shapeCast S600000 (extractStridedSlice S1x600000 ![0, 0] ei slices_S2x600000_S1x600000_0_0) shapeCasts_S1x600000_S600000))

/-- Row 1 of the edge list (the destination nodes) as a column of index words. -/
def dstIdx (ei : IVec S2x600000 32) : IVec S600000x1 32 :=
  broadcastInDim S600000x1 ![0] bcast_S600000_S600000x1_0
    (shapeCast S600000 (extractStridedSlice S1x600000 ![1, 0] ei slices_S2x600000_S1x600000_1_0) shapeCasts_S1x600000_S600000)

/-- The rectified edge messages: (x[src] + edge_attr · We) + be, then max with 0. -/
def msg (x : Vec F S50000x128 .f32) (ea : Vec F S600000x64 .f32) (We : Vec F S64x128 .f32) (be : Vec F S128 .f32) (ei : IVec S2x600000 32) :
    Vec F S600000x128 .f32 :=
  maximumf
    (addf (addf (Host.gather gather_S50000x128_S600000x1_S600000x128_1_0_n_n_0_1_1128 x (srcIdx ei))
        (Host.dotGeneral dot_S600000x64_S64x128_S600000x128_1_0_0_1_n_n none ea We))
      (broadcastInDim S600000x128 ![0, 1] bcast_S1x128_S600000x128_0_1 (broadcastInDim S1x128 ![1] bcast_S128_S1x128_1 be)))
    (broadcastInDim S600000x128 ![] bcast_S_S600000x128 (constant S_ .f32 0x00000000#32))

/-- The messages summed per destination node, into zeros. -/
def aggr (x : Vec F S50000x128 .f32) (ea : Vec F S600000x64 .f32) (We : Vec F S64x128 .f32) (be : Vec F S128 .f32) (ei : IVec S2x600000 32) :
    Vec F S50000x128 .f32 :=
  Host.scatterAdd scatter_S50000x128_S600000x1_S600000x128_1_0_0_1
    (broadcastInDim S50000x128 ![] bcast_S_S50000x128 (constant S_ .f32 0x00000000#32)) (dstIdx ei) (msg x ea We be ei)

/-- A length-128 vector repeated down the 50000 rows. -/
def rowB (v : Vec F S128 .f32) : Vec F S50000x128 .f32 :=
  broadcastInDim S50000x128 ![0, 1] bcast_S1x128_S50000x128_0_1 (broadcastInDim S1x128 ![1] bcast_S128_S1x128_1 v)

/-- The all-zero 50000 × 128 array a rectifier compares with. -/
def zeros : Vec F S50000x128 .f32 := broadcastInDim S50000x128 ![] bcast_S_S50000x128 (constant S_ .f32 0x00000000#32)

/-- (1 + eps) · x + aggr, then the two affine maps with the rectifier between them. -/
def hmlp (x ag : Vec F S50000x128 .f32) (eps : Vec F S_ .f32) (W1 : Vec F S128x128 .f32) (b1 : Vec F S128 .f32)
    (W2 : Vec F S128x128 .f32) (b2 : Vec F S128 .f32) : Vec F S50000x128 .f32 :=
  addf (Host.dotGeneral dot_S50000x128_S128x128_S50000x128_1_0_0_1_n_n none
      (maximumf (addf (Host.dotGeneral dot_S50000x128_S128x128_S50000x128_1_0_0_1_n_n none
          (addf (mulf (broadcastInDim S50000x128 ![] bcast_S_S50000x128 (addf (constant S_ .f32 0x3F800000#32) eps)) x) ag) W1) (rowB b1)) zeros) W2)
    (rowB b2)

/-- The mean over the nodes of each feature: the column sums divided by 50000. -/
def mean (h : Vec F S50000x128 .f32) : Vec F S128 .f32 :=
  Host.divf (Host.reduceAdd h (constant S_ .f32 0x00000000#32) reducesTo_S50000x128_S128_d0 h_S_)
    (broadcastInDim S128 ![] bcast_S_S128 (constant S_ .f32 0x47435000#32))

/-- 50000 minus the (zero) degrees-of-freedom correction, as the variance routine forms it. -/
def count : Vec F S_ .f32 := subf (constant S_ .f32 0x47435000#32) (sitofp .f32 (constantI S_ 32 0#32))

/-- The deviations of h from its column means, as the variance routine forms them (the means kept as a 1 × 128 row). -/
def centred (h : Vec F S50000x128 .f32) : Vec F S50000x128 .f32 :=
  subf h (broadcastInDim S50000x128 ![0, 1] bcast_S1x128_S50000x128_0_1
    (Host.divf (broadcastInDim S1x128 ![1] bcast_S128_S1x128_1 (Host.reduceAdd h (constant S_ .f32 0x00000000#32) reducesTo_S50000x128_S128_d0 h_S_))
      (broadcastInDim S1x128 ![] bcast_S_S1x128 (constant S_ .f32 0x47435000#32))))

/-- The variance routine's result: the column sums of the squared deviations over the count where the count is
    positive, a not-a-number pattern elsewhere. -/
def variance (h : Vec F S50000x128 .f32) : Vec F S128 .f32 :=
  select (broadcastInDim S128 ![] bcast_S_S128 (cmpf .ogt (count (F := F)) (constant S_ .f32 0x00000000#32)))
    (Host.divf (Host.reduceAdd (mulf (centred h) (centred h)) (constant S_ .f32 0x00000000#32) reducesTo_S50000x128_S128_d0 h_S_)
      (broadcastInDim S128 ![] bcast_S_S128 (count (F := F))))
    (broadcastInDim S128 ![] bcast_S_S128 (id (constant S_ .f32 0x7FC00000#32)))

/-- max(((h − mean) · rsqrt(variance + ε)) · γ + β, 0) + x. -/
def out (h x : Vec F S50000x128 .f32) (g b : Vec F S128 .f32) : Vec F S50000x128 .f32 :=
  addf (maximumf
      (addf (mulf (mulf (subf h (rowB (mean h)))
            (rowB (Host.rsqrt (addf (variance h) (broadcastInDim S128 ![] bcast_S_S128 (constant S_ .f32 0x3727C5AC#32))))))
          (rowB g)) (rowB b))
      zeros) x

/-- The reference's result as one term of its twelve argument arrays. -/
def refOut (x : Vec F S50000x128 .f32) (ea : Vec F S600000x64 .f32) (We : Vec F S64x128 .f32) (be : Vec F S128 .f32)
    (W1 : Vec F S128x128 .f32) (b1 : Vec F S128 .f32) (W2 : Vec F S128x128 .f32) (b2 : Vec F S128 .f32)
    (g b : Vec F S128 .f32) (eps : Vec F S_ .f32) (ei : IVec S2x600000 32) : Vec F S50000x128 .f32 :=
  out (hmlp x (aggr x ea We be ei) eps W1 b1 W2 b2) x g b

end Cert.ReferenceIdeal.RefTerm

end
-- ==== Proof.RefRun.lean ====
/-
  The reference program run as a straight line. Its @main, with the four functions it calls unfolded at their
  calls (the rectifier three times, the variance routine once, the selection inside the variance routine), is
  eighty-nine array operations in a fixed order, each writing one buffer that no other operation writes and
  reading buffers written earlier or the twelve arguments. Running it therefore leaves every buffer at the
  value obtained by composing the operations along the reads: the result buffer holds the composed term
  `RefTerm.refOut` of the twelve arguments' initial contents, and the arguments, which nothing writes, keep
  what they held.
-/
import proofs.«412922_j60601988547138_3_alg».proof.ReferenceIdeal
import proofs.«412922_j60601988547138_3_alg».proof.Proof.Gen.ReferenceIdeal
import proofs.«412922_j60601988547138_3_alg».proof.Proof.RefTerm
import Idealize.ShloMosaic.Lib.StableHlo.Run
import Idealize.ShloMosaic.Lib.Pipeline.Regions

noncomputable section

namespace Cert.ReferenceIdeal.RefRun

open Cert.ReferenceIdeal Cert.ReferenceIdeal.Facts₀ Idealize.ShloMosaic Idealize.ShloMosaic.TcCoe
  Idealize.SL.Sem Idealize.ShloMosaic.StableHlo

variable {F : FTy → Type} [FloatOps F]

/-- The operations in order. Lines 1–18 form the edge messages before the rectifier (the two rows of the edge
    list, the source row's negative entries shifted up by the number of nodes, the gathered source rows, the
    projected edge features, the bias); 19–21 are the rectifier (a zero, its broadcast, the maximum); 22–25 sum the
    messages per destination node into zeros; 26–34 form (1 + eps) · x + aggr and the first affine map; 35–37 the
    rectifier; 38–41 the second affine map; 42–46 the column means; 47–69 the variance routine (the column means
    again as a row, the deviations, their squares, the count 50000 − 0, the column sums of the squares over the
    count, the comparison of the count with zero, and the selection between that quotient and a not-a-number
    pattern); 70–85 the normalisation, scale and shift; 86–88 the rectifier; 89 the residual sum. -/
abbrev ops : List (HloOp τ sig (Elt F)) :=
  [ unary main_arg11 main_v0 (extractStridedSlice S1x600000 ![0, 0] · slices_S2x600000_S1x600000_0_0),
    reshape main_v0 main_v1 rfl shapeCasts_S1x600000_S600000,
    unary main_arg11 main_v2 (extractStridedSlice S1x600000 ![1, 0] · slices_S2x600000_S1x600000_1_0),
    reshape main_v2 main_v3 rfl shapeCasts_S1x600000_S600000,
    nullary main_c (constantI S_ 32 0#32),
    unary main_c main_v4 (broadcastInDim S600000 ![] bcast_S_S600000),
    binary main_v1 main_v4 main_v5 (cmpi .slt),
    nullary main_c_0 (constantI S_ 32 50000#32),
    unary main_c_0 main_v6 (broadcastInDim S600000 ![] bcast_S_S600000),
    binary main_v1 main_v6 main_v7 addi,
    ternary main_v5 main_v7 main_v1 main_v8 select,
    unary main_v8 main_v9 (broadcastInDim S600000x1 ![0] bcast_S600000_S600000x1_0),
    binary main_arg0 main_v9 main_v10 (fun x i => Host.gather gather_S50000x128_S600000x1_S600000x128_1_0_n_n_0_1_1128 x i),
    binary main_arg1 main_arg2 main_v11 (fun l r => Host.dotGeneral dot_S600000x64_S64x128_S600000x128_1_0_0_1_n_n none l r),
    binary main_v10 main_v11 main_v12 addf,
    unary main_arg3 main_v13 (broadcastInDim S1x128 ![1] bcast_S128_S1x128_1),
    unary main_v13 main_v14 (broadcastInDim S600000x128 ![0, 1] bcast_S1x128_S600000x128_0_1),
    binary main_v12 main_v14 main_v15 addf,
    TRef.nullary main_call0.cst (constant S_ .f32 0x00000000#32),
    TRef.unary main_call0.cst main_call0.v0 (broadcastInDim S600000x128 ![] bcast_S_S600000x128),
    TRef.binary (.of main_v15) main_call0.v0 main_call0.v1 maximumf,
    nullary main_cst (constant S_ .f32 0x00000000#32),
    unary main_cst main_v17 (broadcastInDim S50000x128 ![] bcast_S_S50000x128),
    unary main_v3 main_v18 (broadcastInDim S600000x1 ![0] bcast_S600000_S600000x1_0),
    ternary main_v17 main_v18 main_v16 main_v19 (fun x i u => Host.scatterAdd scatter_S50000x128_S600000x1_S600000x128_1_0_0_1 x i u),
    nullary main_cst_1 (constant S_ .f32 0x3F800000#32),
    binary main_cst_1 main_arg10 main_v20 addf,
    unary main_v20 main_v21 (broadcastInDim S50000x128 ![] bcast_S_S50000x128),
    binary main_v21 main_arg0 main_v22 mulf,
    binary main_v22 main_v19 main_v23 addf,
    binary main_v23 main_arg4 main_v24 (fun l r => Host.dotGeneral dot_S50000x128_S128x128_S50000x128_1_0_0_1_n_n none l r),
    unary main_arg5 main_v25 (broadcastInDim S1x128 ![1] bcast_S128_S1x128_1),
    unary main_v25 main_v26 (broadcastInDim S50000x128 ![0, 1] bcast_S1x128_S50000x128_0_1),
    binary main_v24 main_v26 main_v27 addf,
    TRef.nullary main_call1.cst (constant S_ .f32 0x00000000#32),
    TRef.unary main_call1.cst main_call1.v0 (broadcastInDim S50000x128 ![] bcast_S_S50000x128),
    TRef.binary (.of main_v27) main_call1.v0 main_call1.v1 maximumf,
    binary main_v28 main_arg6 main_v29 (fun l r => Host.dotGeneral dot_S50000x128_S128x128_S50000x128_1_0_0_1_n_n none l r),
    unary main_arg7 main_v30 (broadcastInDim S1x128 ![1] bcast_S128_S1x128_1),
    unary main_v30 main_v31 (broadcastInDim S50000x128 ![0, 1] bcast_S1x128_S50000x128_0_1),
    binary main_v29 main_v31 main_v32 addf,
    nullary main_cst_2 (constant S_ .f32 0x00000000#32),
    binary main_v32 main_cst_2 main_v33 (fun x v => Host.reduceAdd x v reducesTo_S50000x128_S128_d0 h_S_),
    nullary main_cst_3 (constant S_ .f32 0x47435000#32),
    unary main_cst_3 main_v34 (broadcastInDim S128 ![] bcast_S_S128),
    binary main_v33 main_v34 main_v35 Host.divf,
    nullary main_c_4 (constantI S_ 32 0#32),
    TRef.nullary main_call2.cst (constant S_ .f32 0x00000000#32),
    TRef.binary (.of main_v32) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v32) main_call2.v4 main_call2.v5 subf,
    TRef.binary main_call2.v5 main_call2.v5 main_call2.v6 mulf,
    TRef.unary (.of main_c_4) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2
      (fun p a b => select (broadcastInDim S128 ![] bcast_S_S128 p) a b),
    unary main_v35 main_v37 (broadcastInDim S1x128 ![1] bcast_S128_S1x128_1),
    unary main_v37 main_v38 (broadcastInDim S50000x128 ![0, 1] bcast_S1x128_S50000x128_0_1),
    binary main_v32 main_v38 main_v39 subf,
    nullary main_cst_5 (constant S_ .f32 0x3727C5AC#32),
    unary main_cst_5 main_v40 (broadcastInDim S128 ![] bcast_S_S128),
    binary main_v36 main_v40 main_v41 addf,
    unary main_v41 main_v42 Host.rsqrt,
    unary main_v42 main_v43 (broadcastInDim S1x128 ![1] bcast_S128_S1x128_1),
    unary main_v43 main_v44 (broadcastInDim S50000x128 ![0, 1] bcast_S1x128_S50000x128_0_1),
    binary main_v39 main_v44 main_v45 mulf,
    unary main_arg8 main_v46 (broadcastInDim S1x128 ![1] bcast_S128_S1x128_1),
    unary main_v46 main_v47 (broadcastInDim S50000x128 ![0, 1] bcast_S1x128_S50000x128_0_1),
    binary main_v45 main_v47 main_v48 mulf,
    unary main_arg9 main_v49 (broadcastInDim S1x128 ![1] bcast_S128_S1x128_1),
    unary main_v49 main_v50 (broadcastInDim S50000x128 ![0, 1] bcast_S1x128_S50000x128_0_1),
    binary main_v48 main_v50 main_v51 addf,
    TRef.nullary main_call3.cst (constant S_ .f32 0x00000000#32),
    TRef.unary main_call3.cst main_call3.v0 (broadcastInDim S50000x128 ![] bcast_S_S50000x128),
    TRef.binary (.of main_v51) main_call3.v0 main_call3.v1 maximumf,
    binary main_v52 main_arg0 main_v53 addf ]

/-- @main is that straight line: with the called functions' definitions unfolded at their calls and the call
    records at their fields, both sides are one sequence of the same steps once sequencing is reassociated. -/
theorem main_eq (c : Dev nD) : main (F := F) c = seq ops := by
  chain_rfl

attribute [local irreducible] Host.gather Host.scatterAdd Host.reduceAdd Host.divf Host.rsqrt in
set_option maxRecDepth 16384 in
set_option maxHeartbeats 1000000 in
/-- What the result buffer holds after the line, from contents `V`: each operation's value at the one buffer it
    writes, every other buffer as it was, so reading the last sum back through the reads reaches the arguments
    and gives the composed term. -/
theorem out_eq (V : Valuation τ sig (Elt F)) :
    after ops V (main_v53 : DevRef τ sig)
      = RefTerm.refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  simp only [after_cons, after_nil]
  rfl

/-! No operation writes an argument's buffer, so after the line each argument holds what it held. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

theorem arg11_eq (V : Valuation τ sig (Elt F)) :
    after ops V (main_arg11 : DevRef τ sig) = V (main_arg11 : DevRef τ sig) := by
  simp only [after_cons, after_nil]
  rfl

/-- The program scopes no buffer and no semaphore: every buffer is a tensor value's, live for the whole run. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., unary_bufs_sub .., binary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩

/-- From any memory with zero counters every weakly fair execution of @main terminates, and every final state
    has each buffer at the operations' fold over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- On the one device, for any float values, from any memory with zero counters: every weakly fair execution of
    @main terminates; the result buffer then holds the composed term of the arguments' initial contents, and each
    argument holds what it held. The line's run gives every buffer at the operations' fold over the initial
    contents; the fold at the result buffer is the composed term, and at an argument, which no operation writes,
    the initial contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c main_v53).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _)⟩)
    (run_main m ρ)

end Cert.ReferenceIdeal.RefRun

end
-- ==== Proof.RefRead.lean ====
/-
  The reference's composed term, read index by index on the extended reals.

  Every layer of the term is opened at an entry (n, j): a scalar spread over an array reads the scalar, a length-128
  vector repeated down the rows reads its entry j, a plain matrix product reads the finite sum over the contracted
  index, a column reduction reads the finite sum over the 50000 rows, the count 50000 − 0 is 50000 and positive so the
  guarded quotient is the quotient. Composed, the term is the specification's layer applied to the summed edge
  messages, which stay a black box here.
-/
import proofs.«412922_j60601988547138_3_alg».proof.Proof.RefTerm
import proofs.«412922_j60601988547138_3_alg».proof.Proof.Gen.ReferenceIdeal
import proofs.«412922_j60601988547138_3_alg».proof.Proof.Spec
import proofs.«412922_j60601988547138_3_alg».proof.Proof.LibMatmulPlain
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRead

open Idealize.ShloMosaic Idealize.ShloMosaic.ValueIdx Cert.ReferenceIdeal Cert.ReferenceIdeal.Facts₀
open scoped BigOperators

/-! ## Layout operations read at an entry -/

/-- A scalar spread over any shape reads the scalar everywhere. -/
theorem bcastScalar_apply {α : Type} {t : Shape} (h : S_.BroadcastsInDim t (![] : Fin 0 → Fin t.rank)) (s : S_.Idx → α) (i : t.Idx) :
    broadcastInDim t ![] h s i = s ix0 :=
  broadcastInDim_apply _ h s i ix0 (fun a => a.elim0)

/-- A 1 × 128 row repeated down 50000 rows reads, at (n, j), the row's entry (0, j). -/
theorem bcastRows_apply {α : Type} (h : S1x128.BroadcastsInDim S50000x128 (![0, 1] : Fin 2 → Fin S50000x128.rank))
    (u : S1x128.Idx → α) (n : Fin 50000) (j : Fin 128) :
    broadcastInDim S50000x128 ![0, 1] h u (ix2 n j) = u (ix2 0 j) :=
  broadcastInDim_apply _ h u _ _ (fun a => by
    match a with
    | ⟨0, _⟩ => rfl
    | ⟨1, _⟩ => rfl)

/-- A length-128 vector set as a 1 × 128 row reads, at (0, j), the vector's entry j. -/
theorem bcastLift_apply {α : Type} (h : S128.BroadcastsInDim S1x128 (![1] : Fin 1 → Fin S1x128.rank))
    (v : S128.Idx → α) (j : Fin 128) :
    broadcastInDim S1x128 ![1] h v (ix2 0 j) = v (ix1 j) :=
  broadcastInDim_apply _ h v _ _ (fun a => by
    match a with
    | ⟨0, _⟩ => rfl)

/-- A length-128 vector repeated down the rows reads its entry j at (n, j). -/
theorem rowB_apply (v : Vec Ideal S128 .f32) (n : Fin 50000) (j : Fin 128) :
    RefTerm.rowB (F := Ideal) v (ix2 n j) = v (ix1 j) := by
  unfold RefTerm.rowB
  rw [bcastRows_apply, bcastLift_apply]

/-- The zero array reads 0. -/
theorem zeros_apply (i : S50000x128.Idx) : RefTerm.zeros (F := Ideal) i = 0 := by
  unfold RefTerm.zeros
  rw [bcastScalar_apply]
  exact Ideal.ofBits_zero_f32

/-! ## The host's plain product read at an entry -/

/-- Entry (i, j) of the host's l·r: the sum over q of l[i, q] · r[q, j]. -/
theorem hostDot_plain_apply {M K N : ℕ} {φ₁ φ₂ : FTy} (l : FVec Ideal ⟨2, ![M, K]⟩ φ₁) (r : FVec Ideal ⟨2, ![K, N]⟩ φ₂)
    (i : Fin M) (j : Fin N) :
    Host.dotGeneral (DotDims.plain M K N) none l r (ix2 i j) = ∑ q : Fin K, l (ix2 i q) * r (ix2 q j) := by
  simp only [Host.dotGeneral]
  rw [Ideal.dotGeneral_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact Cert.LibMatmulPlain.lhs_plain_0 _ _
      | ⟨1, _⟩ => exact (Cert.LibMatmulPlain.lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (Cert.LibMatmulPlain.rhs_plain_0 _ _).trans hq
      | ⟨1, _⟩ => exact Cert.LibMatmulPlain.rhs_plain_1 _ _)
  rw [el, er]

/-- The reference's dimension record of its two 50000 × 128 by 128 × 128 products is the plain one. -/
theorem dot_eq_plain : dot_S50000x128_S128x128_S50000x128_1_0_0_1_n_n = DotDims.plain 50000 128 128 := rfl

/-- The reference's product at (n, j). -/
theorem refDot_apply (l : FVec Ideal S50000x128 .f32) (r : FVec Ideal S128x128 .f32) (n : Fin 50000) (j : Fin 128) :
    Host.dotGeneral (F := Ideal) dot_S50000x128_S128x128_S50000x128_1_0_0_1_n_n none l r (ix2 n j)
      = ∑ q : Fin 128, l (ix2 n q) * r (ix2 q j) := by
  rw [dot_eq_plain]
  exact hostDot_plain_apply l r n j

/-! ## The two affine maps -/

/-- The reference's hidden layers are the specification's, with 1 + eps held in every place of the scale vector. -/
theorem hmlp_eq (x ag : Vec Ideal S50000x128 .f32) (eps : Vec Ideal S_ .f32) (W1 : Vec Ideal S128x128 .f32) (b1 : Vec Ideal S128 .f32)
    (W2 : Vec Ideal S128x128 .f32) (b2 : Vec Ideal S128 .f32) :
    RefTerm.hmlp (F := Ideal) x ag eps W1 b1 W2 b2
      = Cert.Spec.hmlp x ag (fun _ => Ideal.ofBits .f32 0x3F800000#32 + eps ix0) W1 b1 W2 b2 := by
  funext i
  obtain ⟨n, j, rfl⟩ : ∃ n j, i = ix2 n j := ⟨_, _, eq_ix2 i⟩
  unfold RefTerm.hmlp Cert.Spec.hmlp
  rw [addf_apply, refDot_apply, rowB_apply]
  refine congrArg (· + b2 (ix1 j)) (Finset.sum_congr rfl fun k _ => ?_)
  refine congrArg (· * W2 (ix2 k j)) ?_
  rw [maximumf_apply, addf_apply, refDot_apply, rowB_apply, zeros_apply]
  unfold Cert.Spec.hid
  refine congrArg (fun s => max (s + b1 (ix1 k)) 0) (Finset.sum_congr rfl fun q _ => ?_)
  refine congrArg (· * W1 (ix2 q k)) ?_
  rw [addf_apply, mulf_apply, bcastScalar_apply]
  rfl

/-! ## Entrywise host operations -/

/-- The host's quotient, entry by entry. -/
theorem hostDivf_apply {s : Shape} {φ : FTy} (a b : FVec Ideal s φ) (i : s.Idx) : Host.divf a b i = Ideal.div (a i) (b i) := rfl

/-- The host's reciprocal square root, entry by entry. -/
theorem hostRsqrt_apply {s : Shape} {φ : FTy} (a : FVec Ideal s φ) (i : s.Idx) : Host.rsqrt a i = Ideal.rsqrt (a i) := rfl

/-! ## The column sums, the mean and the variance -/

/-- A 50000 × 128 array with its row axis removed is a length-128 vector. -/
theorem reducesCols : S50000x128.Reduces [0] S128 := by decide

/-- The host's sum down the 50000 rows, from a zero initial value, reads at column j the finite sum of that column. -/
theorem colSum_apply (v : FVec Ideal S50000x128 .f32) (j : Fin 128) :
    Host.reduceAdd (F := Ideal) v (constant S_ .f32 0x00000000#32) reducesTo_S50000x128_S128_d0 h_S_ (ix1 j)
      = ∑ n : Fin 50000, v (ix2 n j) := by
  unfold Host.reduceAdd
  rw [Ideal.hostReduceAdd_def, Ideal.hostReduceAdd_single _ reducesCols, constant_apply, Ideal.ofBits_zero_f32, zero_add]
  exact Finset.sum_congr rfl fun k _ => congrArg v (funext fun a => Fin.ext (by
    match a with
    | ⟨0, _⟩ => rfl
    | ⟨1, _⟩ => rfl))

/-- The float pattern of the node count denotes the real 50000. -/
theorem nE_eq : Cert.Spec.nE = ((50000 : ℝ) : EReal) := by
  unfold Cert.Spec.nE
  simp [Ideal.ofBits, Ideal.ieee, -EReal.coe_mul]; norm_num

/-- The node count is positive. -/
theorem nE_pos : 0 < Cert.Spec.nE := by
  rw [nE_eq]
  exact EReal.coe_pos.mpr (by norm_num)

/-- The reference's column mean is the specification's. -/
theorem mean_apply (h : FVec Ideal S50000x128 .f32) (j : Fin 128) :
    RefTerm.mean (F := Ideal) h (ix1 j) = Cert.Spec.mu h (ix1 j) := by
  unfold RefTerm.mean Cert.Spec.mu
  rw [hostDivf_apply, colSum_apply, bcastScalar_apply]
  rfl

/-- The same, as arrays. -/
theorem mean_eq (h : FVec Ideal S50000x128 .f32) : RefTerm.mean (F := Ideal) h = Cert.Spec.mu h := by
  funext j
  rw [eq_ix1 j]
  exact mean_apply h (j 0)

/-- The count the variance divides by: 50000 minus the integer 0 read as a float, which is 50000. -/
theorem count_apply : RefTerm.count (F := Ideal) ix0 = Cert.Spec.nE := by
  unfold RefTerm.count
  rw [subf_apply, sitofp_apply, constant_apply]
  show Cert.Spec.nE - (((constantI S_ 32 0#32 ix0).toInt : ℝ) : EReal) = Cert.Spec.nE
  rw [show (constantI S_ 32 0#32 ix0).toInt = 0 from by decide, Int.cast_zero, EReal.coe_zero, sub_zero]

/-- The deviations from the column means, at (n, j). -/
theorem centred_apply (h : FVec Ideal S50000x128 .f32) (n : Fin 50000) (j : Fin 128) :
    RefTerm.centred (F := Ideal) h (ix2 n j) = h (ix2 n j) - Cert.Spec.mu h (ix1 j) := by
  unfold RefTerm.centred Cert.Spec.mu
  rw [subf_apply, bcastRows_apply, hostDivf_apply, bcastLift_apply, colSum_apply, bcastScalar_apply]
  rfl

/-- The count is positive, so the guarded quotient is the quotient: the specification's variance about the mean. -/
theorem variance_apply (h : FVec Ideal S50000x128 .f32) (j : Fin 128) :
    RefTerm.variance (F := Ideal) h (ix1 j) = Cert.Spec.var h (Cert.Spec.mu h) (ix1 j) := by
  unfold RefTerm.variance
  rw [select_apply, bcastScalar_apply, cmpf_apply, count_apply, constant_apply, Ideal.ofBits_zero_f32]
  have hc : FloatOps.cmpf (F := Ideal) (φ := .f32) .ogt Cert.Spec.nE 0 = 1#1 := by
    show BitVec.ofBool (decide ((0 : EReal) < Cert.Spec.nE)) = 1#1
    rw [decide_eq_true nE_pos]
    rfl
  rw [hc, select_one, hostDivf_apply, colSum_apply, bcastScalar_apply, count_apply]
  unfold Cert.Spec.var
  refine congrArg (Ideal.div · Cert.Spec.nE) (Finset.sum_congr rfl fun n _ => ?_)
  rw [mulf_apply, centred_apply]

/-- The same, as arrays. -/
theorem variance_eq (h : FVec Ideal S50000x128 .f32) : RefTerm.variance (F := Ideal) h = Cert.Spec.var h (Cert.Spec.mu h) := by
  funext j
  rw [eq_ix1 j]
  exact variance_apply h (j 0)

/-! ## The normalised result -/

/-- The reference's normalisation, rectifier and residual are the specification's, about the mean and the variance. -/
theorem out_eq (h x : FVec Ideal S50000x128 .f32) (g b : FVec Ideal S128 .f32) :
    RefTerm.out (F := Ideal) h x g b = Cert.Spec.out h x (Cert.Spec.mu h) (Cert.Spec.var h (Cert.Spec.mu h)) g b := by
  funext i
  obtain ⟨n, j, rfl⟩ : ∃ n j, i = ix2 n j := ⟨_, _, eq_ix2 i⟩
  unfold RefTerm.out Cert.Spec.out
  rw [mean_eq, variance_eq, addf_apply, maximumf_apply, addf_apply, mulf_apply, mulf_apply, subf_apply, rowB_apply, rowB_apply,
    rowB_apply, rowB_apply, zeros_apply, hostRsqrt_apply, addf_apply, bcastScalar_apply]
  rfl

/-! ## The whole term -/

/-- The reference's result is the specification's layer on its node features, its summed edge messages (left unopened),
    the scale 1 + eps in every place, and its weights. -/
theorem refOut_eq (x : Vec Ideal S50000x128 .f32) (ea : Vec Ideal S600000x64 .f32) (We : Vec Ideal S64x128 .f32) (be : Vec Ideal S128 .f32)
    (W1 : Vec Ideal S128x128 .f32) (b1 : Vec Ideal S128 .f32) (W2 : Vec Ideal S128x128 .f32) (b2 : Vec Ideal S128 .f32)
    (g b : Vec Ideal S128 .f32) (eps : Vec Ideal S_ .f32) (ei : IVec S2x600000 32) :
    RefTerm.refOut (F := Ideal) x ea We be W1 b1 W2 b2 g b eps ei
      = Cert.Spec.layer x (RefTerm.aggr (F := Ideal) x ea We be ei) (fun _ => Ideal.ofBits .f32 0x3F800000#32 + eps ValueIdx.ix0) W1 b1 W2 b2 g b := by
  unfold RefTerm.refOut Cert.Spec.layer
  rw [out_eq, hmlp_eq]

end Cert.ReferenceIdeal.RefRead

end
-- ==== Proof.Bridge.lean ====
/-
  Where the two programs' whole-array pieces meet, on the extended reals.

  The summed edge messages: the kernel's program adds the bias to the projected edge features first and the gathered
  source rows after, the reference adds the gathered rows first and the bias last — one sum, since addition of extended
  reals is associative; the kernel's program narrows the product's operands to bf16, which changes nothing where a change
  of format is the identity. The gather, the product and the scatter are the same operations on both sides.
  The scalar 1 + eps: a 128-vector holding it in every place.
-/
import proofs.«412922_j60601988547138_3_alg».proof.Proof.KTerm
import proofs.«412922_j60601988547138_3_alg».proof.Proof.RefTerm
import proofs.«412922_j60601988547138_3_alg».proof.Proof.Gen.KernelIdeal
import proofs.«412922_j60601988547138_3_alg».proof.Proof.Gen.ReferenceIdeal
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx

/-- The index columns are the same words on both sides. -/
theorem srcIdx_eq (ei : IVec ⟨2, ![2, 600000]⟩ 32) : Cert.KernelIdeal.KTerm.srcIdx ei = Cert.ReferenceIdeal.RefTerm.srcIdx ei := rfl
theorem dstIdx_eq (ei : IVec ⟨2, ![2, 600000]⟩ 32) : Cert.KernelIdeal.KTerm.dstIdx ei = Cert.ReferenceIdeal.RefTerm.dstIdx ei := rfl

/-- The rectified messages agree entry by entry: x[src] + (p + b) = (x[src] + p) + b. -/
theorem msg_eq (x : Vec Ideal ⟨2, ![50000, 128]⟩ .f32) (ea : Vec Ideal ⟨2, ![600000, 64]⟩ .f32) (We : Vec Ideal ⟨2, ![64, 128]⟩ .f32)
    (be : Vec Ideal ⟨1, ![128]⟩ .f32) (ei : IVec ⟨2, ![2, 600000]⟩ 32) :
    Cert.KernelIdeal.KTerm.msg (F := Ideal) x ea We be ei = Cert.ReferenceIdeal.RefTerm.msg (F := Ideal) x ea We be ei := by
  funext i
  unfold Cert.KernelIdeal.KTerm.msg Cert.ReferenceIdeal.RefTerm.msg
  simp only [maximumf_apply, addf_apply]
  rw [← add_assoc]
  rfl

/-- So the sums per destination node agree. -/
theorem aggr_eq (x : Vec Ideal ⟨2, ![50000, 128]⟩ .f32) (ea : Vec Ideal ⟨2, ![600000, 64]⟩ .f32) (We : Vec Ideal ⟨2, ![64, 128]⟩ .f32)
    (be : Vec Ideal ⟨1, ![128]⟩ .f32) (ei : IVec ⟨2, ![2, 600000]⟩ 32) :
    Cert.KernelIdeal.KTerm.aggr (F := Ideal) x ea We be ei = Cert.ReferenceIdeal.RefTerm.aggr (F := Ideal) x ea We be ei := by
  unfold Cert.KernelIdeal.KTerm.aggr Cert.ReferenceIdeal.RefTerm.aggr
  rw [msg_eq, dstIdx_eq]
  rfl

/-- The repeated scalar reads 1 + eps in every place. -/
theorem ope_eq (eps : Vec Ideal ⟨0, ![]⟩ .f32) :
    Cert.KernelIdeal.KTerm.ope (F := Ideal) eps = fun _ => Ideal.ofBits .f32 0x3F800000#32 + eps ix0 := by
  funext i
  unfold Cert.KernelIdeal.KTerm.ope
  exact broadcastInDim_apply _ _ _ i ix0 (fun a => a.elim0)

end Cert.Bridge

end
-- ==== Proof.lean ====
/-
  The certificate's claims assembled.

  The kernel's program and the reference compute one function of their arguments on the extended reals: the layer of
  Proof/Spec.lean. The kernel's side reads its result buffer back through its three tiled stages (Proof/KValue.lean over
  the per-stage array equations R0, R1, R2 and the partial-sum identities of KReduce); the reference's side is its
  straight-line run (Proof/RefRun.lean) read at an index (Proof/RefRead.lean); the two meet where the summed edge
  messages and the scalar 1 + eps are the same arrays (Proof/Bridge.lean). The three frames are the generated ones for the
  two kernel programs and the reference's run with its result dropped; the idealization rewrote nothing.
-/
import proofs.«412922_j60601988547138_3_alg».proof.Defs
import proofs.«412922_j60601988547138_3_alg».proof.Proof.Gen.Kernel
import proofs.«412922_j60601988547138_3_alg».proof.Proof.Gen.Kernel.Frame
import proofs.«412922_j60601988547138_3_alg».proof.Proof.Gen.KernelIdeal
import proofs.«412922_j60601988547138_3_alg».proof.Proof.Gen.KernelIdeal.Frame
import proofs.«412922_j60601988547138_3_alg».proof.Proof.Gen.ReferenceIdeal
import proofs.«412922_j60601988547138_3_alg».proof.Proof.Gen.Pre_finite_inputs
import proofs.«412922_j60601988547138_3_alg».proof.Proof.KernelRun
import proofs.«412922_j60601988547138_3_alg».proof.Proof.KValue
import proofs.«412922_j60601988547138_3_alg».proof.Proof.RefRun
import proofs.«412922_j60601988547138_3_alg».proof.Proof.RefRead
import proofs.«412922_j60601988547138_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the layer of the (agreeing) arguments in their result buffers. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (Cert.KernelIdeal.KTerm.aggr (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg11)))
      (Cert.KernelIdeal.KTerm.ope (F := Ideal) (m ((c.tc : Thread Cert.KernelIdeal.nD Cert.KernelIdeal.τ).loc Cert.KernelIdeal.main_arg10)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.KValue.result_eq m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11⟩ := hagree c
    rw [Cert.ReferenceIdeal.RefRead.refOut_eq, e0, e1, e2, e3, e4, e5, e6, e7, e8, e9, e10, e11, ← Cert.Bridge.aggr_eq, ← Cert.Bridge.ope_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
